-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S256x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024 : Shape := ⟨1, ![1024]⟩
abbrev S1024x32 : Shape := ⟨2, ![1024, 32]⟩
abbrev S_ : Shape := ⟨0, ![]⟩
abbrev S16384x128 : Shape := ⟨2, ![16384, 128]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  slices_S16384x256_S16384x128_0_128 : S16384x256.Slices ![0, 128] S16384x128
  bcast_S_S16384x128 : S_.BroadcastsInDim S16384x128 (![] : Fin 0 → Fin S16384x128.rank)
  reducesTo_S16384x128_S_d0_1 : S16384x128.ReducesTo [0, 1] S_

variable [Facts]

def fn_part3 {F : FTy → Type} [FloatOps F] (main_v44 : IVec S_ 1) (main_v49 : IVec S_ 1) : IVec S_ 1 :=
  let main_v50 : IVec S_ 1 := andi main_v44 main_v49
  main_v50

def fn_part2 {F : FTy → Type} [FloatOps F] (main_arg0 : FVec F S16384x256 .f32) (main_arg5 : IVec S1024 32) (main_v30 : IVec S_ 1) (main_v32 : IVec S1024 1) : IVec S_ 1 :=
  let main_c_13 : IVec S_ 1 := constantI S_ 1 1#1
  let main_v33 : IVec S_ 1 := (fun x v => Host.reduce IntOp.andi x v reducesTo_S1024_S_d0 h_S_) main_v32 main_c_13
  let main_v34 : IVec S_ 1 := andi main_v30 main_v33
  let main_c_14 : IVec S_ 32 := constantI S_ 32 256#32
  let main_v35 : IVec S1024 32 := broadcastInDim S1024 ![] bcast_S_S1024 main_c_14
  let main_v36 : IVec S1024 1 := cmpi .slt main_arg5 main_v35
  let main_c_15 : IVec S_ 1 := constantI S_ 1 1#1
  let main_v37 : IVec S_ 1 := (fun x v => Host.reduce IntOp.andi x v reducesTo_S1024_S_d0 h_S_) main_v36 main_c_15
  let main_v38 : IVec S_ 1 := andi main_v34 main_v37
  let main_v39 : FVec F S16384x128 .f32 := (extractStridedSlice S16384x128 ![0, 128] · slices_S16384x256_S16384x128_0_128) main_arg0
  let main_v40 : IVec S16384x128 32 := fptosi 32 main_v39
  let main_c_16 : IVec S_ 32 := constantI S_ 32 0#32
  let main_v41 : IVec S16384x128 32 := broadcastInDim S16384x128 ![] bcast_S_S16384x128 main_c_16
  let main_v42 : IVec S16384x128 1 := cmpi .sge main_v40 main_v41
  let main_c_17 : IVec S_ 1 := constantI S_ 1 1#1
  let main_v43 : IVec S_ 1 := (fun x v => Host.reduce IntOp.andi x v reducesTo_S16384x128_S_d0_1 h_S_) main_v42 main_c_17
  let main_v44 : IVec S_ 1 := andi main_v38 main_v43
  let main_v45 : FVec F S16384x128 .f32 := (extractStridedSlice S16384x128 ![0, 128] · slices_S16384x256_S16384x128_0_128) main_arg0
  let main_v46 : IVec S16384x128 32 := fptosi 32 main_v45
  let main_c_18 : IVec S_ 32 := constantI S_ 32 32#32
  let main_v47 : IVec S16384x128 32 := broadcastInDim S16384x128 ![] bcast_S_S16384x128 main_c_18
  let main_v48 : IVec S16384x128 1 := cmpi .slt main_v46 main_v47
  let main_c_19 : IVec S_ 1 := constantI S_ 1 1#1
  let main_v49 : IVec S_ 1 := (fun x v => Host.reduce IntOp.andi x v reducesTo_S16384x128_S_d0_1 h_S_) main_v48 main_c_19
  fn_part3 (F := F) main_v44 main_v49

def fn_part1 {F : FTy → Type} [FloatOps F] (main_arg0 : FVec F S16384x256 .f32) (main_arg2 : FVec F S1024 .f32) (main_arg4 : IVec S1024 32) (main_arg5 : IVec S1024 32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_cst_6 : FVec F S_ .f32 := constant S_ .f32 0x00000000#32
  let main_v19 : FVec F S1024 .f32 := broadcastInDim S1024 ![] bcast_S_S1024 main_cst_6
  let main_v20 : IVec S1024 1 := cmpf .ogt main_arg2 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v18 main_v21
  let main_c_8 : IVec S_ 32 := constantI S_ 32 0#32
  let main_v23 : IVec S1024 32 := broadcastInDim S1024 ![] bcast_S_S1024 main_c_8
  let main_v24 : IVec S1024 1 := cmpi .sge main_arg4 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v22 main_v25
  let main_c_10 : IVec S_ 32 := constantI S_ 32 128#32
  let main_v27 : IVec S1024 32 := broadcastInDim S1024 ![] bcast_S_S1024 main_c_10
  let main_v28 : IVec S1024 1 := cmpi .slt main_arg4 main_v27
  let main_c_11 : IVec S_ 1 := constantI S_ 1 1#1
  let main_v29 : IVec S_ 1 := (fun x v => Host.reduce IntOp.andi x v reducesTo_S1024_S_d0 h_S_) main_v28 main_c_11
  let main_v30 : IVec S_ 1 := andi main_v26 main_v29
  let main_c_12 : IVec S_ 32 := constantI S_ 32 128#32
  let main_v31 : IVec S1024 32 := broadcastInDim S1024 ![] bcast_S_S1024 main_c_12
  let main_v32 : IVec S1024 1 := cmpi .sge main_arg5 main_v31
  fn_part2 (F := F) main_arg0 main_arg5 main_v30 main_v32

def fn {F : FTy → Type} [FloatOps F] (main_arg0 : FVec F S16384x256 .f32) (main_arg1 : FVec F S1024 .f32) (main_arg2 : FVec F S1024 .f32) (main_arg3 : FVec F S1024x32 .f32) (main_arg4 : IVec S1024 32) (main_arg5 : IVec S1024 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg0 main_arg2 main_arg4 main_arg5 main_v13 main_v16
-- ==== Kernel.lean ====
abbrev S16384x256 : Shape := ⟨2, ![16384, 256]⟩
abbrev S1024 : Shape := ⟨1, ![1024]⟩
abbrev S1024x32 : Shape := ⟨2, ![1024, 32]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S256x1024 : Shape := ⟨2, ![256, 1024]⟩
abbrev S32x1024 : Shape := ⟨2, ![32, 1024]⟩
abbrev S32x1x1024 : Shape := ⟨3, ![32, 1, 1024]⟩
abbrev S1x128x1024 : Shape := ⟨3, ![1, 128, 1024]⟩
abbrev S32x128x1024 : Shape := ⟨3, ![32, 128, 1024]⟩
abbrev S4096x1024 : Shape := ⟨2, ![4096, 1024]⟩
abbrev S16384x2048 : Shape := ⟨2, ![16384, 2048]⟩
abbrev S256x256 : Shape := ⟨2, ![256, 256]⟩
abbrev S256x2048 : Shape := ⟨2, ![256, 2048]⟩
abbrev S256x128 : Shape := ⟨2, ![256, 128]⟩
abbrev S256x4096 : Shape := ⟨2, ![256, 4096]⟩

abbrev nBuf : Space → Nat
  | .hbm => 62
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S1024, .f32⟩
  | .hbm, ⟨2, _⟩ => ⟨S1024, .f32⟩
  | .hbm, ⟨3, _⟩ => ⟨S1024x32, .f32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S128, .i32⟩
  | .hbm, ⟨26, _⟩ => ⟨S128x1, .i32⟩
  | .hbm, ⟨27, _⟩ => ⟨S1x1024, .i32⟩
  | .hbm, ⟨28, _⟩ => ⟨S128x1024, .i32⟩
  | .hbm, ⟨29, _⟩ => ⟨S128x1024, .i32⟩
  | .hbm, ⟨30, _⟩ => ⟨S128x1024, .i1⟩
  | .hbm, ⟨31, _⟩ => ⟨S128x1024, .bf16⟩
  | .hbm, ⟨32, _⟩ => ⟨S256x1024, .bf16⟩
  | .hbm, ⟨33, _⟩ => ⟨S128x1, .i32⟩
  | .hbm, ⟨34, _⟩ => ⟨S1x1024, .i32⟩
  | .hbm, ⟨35, _⟩ => ⟨S128x1024, .i32⟩
  | .hbm, ⟨36, _⟩ => ⟨S128x1024, .i32⟩
  | .hbm, ⟨37, _⟩ => ⟨S128x1024, .i1⟩
  | .hbm, ⟨38, _⟩ => ⟨S128x1024, .f32⟩
  | .hbm, ⟨39, _⟩ => ⟨S1x1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1x1024, .f32⟩
  | .hbm, ⟨50, _⟩ => ⟨S32x1024, .f32⟩
  | .hbm, ⟨51, _⟩ => ⟨S32x1x1024, .f32⟩
  | .hbm, ⟨52, _⟩ => ⟨S1x128x1024, .f32⟩
  | .hbm, ⟨53, _⟩ => ⟨S32x128x1024, .f32⟩
  | .hbm, ⟨54, _⟩ => ⟨S32x128x1024, .f32⟩
  | .hbm, ⟨55, _⟩ => ⟨S32x128x1024, .f32⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S16384x2048, .f32⟩
  | .local _ .vmem, ⟨0, _⟩ => ⟨S256x256, .f32⟩
  | .local _ .vmem, ⟨1, _⟩ => ⟨S256x256, .f32⟩
  | .local _ .vmem, ⟨2, _⟩ => ⟨S256x1024, .bf16⟩
  | .local _ .vmem, ⟨3, _⟩ => ⟨S4096x1024, .bf16⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x2048, .f32⟩
  | .local _ .vmem, ⟨9, _⟩ => ⟨S256x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_c_1 : Ref sig .tc := ⟨.hbm, 14, rfl⟩
abbrev main_v1 : Ref sig .tc := ⟨.hbm, 15, rfl⟩
abbrev main_v2 : Ref sig .tc := ⟨.hbm, 16, rfl⟩
abbrev main_c_2 : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1024 : S_.BroadcastsInDim S1024 (![] : Fin 0 → Fin S1024.rank)
  bcast_S128_S128x1_0 : S128.BroadcastsInDim S128x1 (![0] : Fin 1 → Fin S128x1.rank)
  bcast_S1024_S1x1024_1 : S1024.BroadcastsInDim S1x1024 (![1] : Fin 1 → Fin S1x1024.rank)
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)
  concatenates_S128x1024_S128x1024_S256x1024_d0 : Shape.Concatenates [S128x1024, S128x1024] S256x1024 0
  shapeCasts_S1024_S1x1024 : S1024.ShapeCasts S1x1024
  transposes_S1024x32_S32x1024_1_0 : S1024x32.Transposes [1, 0] S32x1024
  bcast_S32x1024_S32x1x1024_0_2 : S32x1024.BroadcastsInDim S32x1x1024 (![0, 2] : Fin 2 → Fin S32x1x1024.rank)
  bcast_S128x1024_S1x128x1024_1_2 : S128x1024.BroadcastsInDim S1x128x1024 (![1, 2] : Fin 2 → Fin S1x128x1024.rank)
  bcast_S32x1x1024_S32x128x1024_0_1_2 : S32x1x1024.BroadcastsInDim S32x128x1024 (![0, 1, 2] : Fin 3 → Fin S32x128x1024.rank)
  bcast_S1x128x1024_S32x128x1024_0_1_2 : S1x128x1024.BroadcastsInDim S32x128x1024 (![0, 1, 2] : Fin 3 → Fin S32x128x1024.rank)
  shapeCasts_S32x128x1024_S4096x1024 : S32x128x1024.ShapeCasts S4096x1024
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S256x256_o0_0_S256x128 : S256x256.Slices ![0, 0] S256x128
  slices_S256x256_o0_128_S256x128 : S256x256.Slices ![0, 128] S256x128
  concatenates_S256x128_S256x128_S256x256_d1 : Shape.Concatenates [S256x128, S256x128] S256x256 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 : Shape.Concatenates [S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128] S256x4096 1
  iota_S256x4096_d1_w32 : S256x4096.Iotas .tc 32 [1]
  natLt_1_32 : 1 < 32
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x2048_S256x1024_0_0 : ∀ a, (![0, 0] : Fin 2 → Nat) a + S256x1024.size a ≤ S256x2048.size a
  inb_S256x2048_S256x1024_0_1024 : ∀ a, (![0, 1024] : Fin 2 → Nat) a + S256x1024.size a ≤ S256x2048.size a
  dot_S256x256_S256x1024_S256x1024_1_0_0_1_n_n_wf : DotDims.WF S256x256 S256x1024 S256x1024 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S16384x2048.size a
  hwx0_7 : ∀ i : grid0.Coords, EltTy.bits .f32 = 32 ∨ (Rect.block (s := S16384x2048) S256x2048.size (cc0_transform_7 i) (hinb0_7 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024 : Shape := ⟨1, ![1024]⟩
abbrev S1024x32 : Shape := ⟨2, ![1024, 32]⟩
abbrev S_ : Shape := ⟨0, ![]⟩
abbrev S1024x1 : Shape := ⟨2, ![1024, 1]⟩
abbrev S16384x1024 : Shape := ⟨2, ![16384, 1024]⟩
abbrev S1x1024 : Shape := ⟨2, ![1, 1024]⟩
abbrev S16384x1024x1 : Shape := ⟨3, ![16384, 1024, 1]⟩
abbrev S16384x1024x2 : Shape := ⟨3, ![16384, 1024, 2]⟩
abbrev S16384x2048 : Shape := ⟨2, ![16384, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024, .f32⟩
  | .hbm, ⟨2, _⟩ => ⟨S1024, .f32⟩
  | .hbm, ⟨3, _⟩ => ⟨S1024x32, .f32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S16384x1024, .f32⟩
  | .hbm, ⟨41, _⟩ => ⟨S16384x1024, .i32⟩
  | .hbm, ⟨42, _⟩ => ⟨S1024, .i32⟩
  | .hbm, ⟨43, _⟩ => ⟨S1x1024, .i32⟩
  | .hbm, ⟨44, _⟩ => ⟨S_, .i32⟩
  | .hbm, ⟨45, _⟩ => ⟨S1x1024, .i32⟩
  | .hbm, ⟨46, _⟩ => ⟨S1x1024, .i1⟩
  | .hbm, ⟨47, _⟩ => ⟨S_, .i32⟩
  | .hbm, ⟨48, _⟩ => ⟨S1x1024, .i32⟩
  | .hbm, ⟨49, _⟩ => ⟨S1x1024, .i32⟩
  | .hbm, ⟨50, _⟩ => ⟨S1x1024, .i32⟩
  | .hbm, ⟨51, _⟩ => ⟨S_, .i32⟩
  | .hbm, ⟨52, _⟩ => ⟨S16384x1024, .i32⟩
  | .hbm, ⟨53, _⟩ => ⟨S16384x1024, .i1⟩
  | .hbm, ⟨54, _⟩ => ⟨S_, .i32⟩
  | .hbm, ⟨55, _⟩ => ⟨S16384x1024, .i32⟩
  | .hbm, ⟨56, _⟩ => ⟨S16384x1024, .i32⟩
  | .hbm, ⟨57, _⟩ => ⟨S16384x1024, .i32⟩
  | .hbm, ⟨58, _⟩ => ⟨S16384x1024, .i32⟩
  | .hbm, ⟨59, _⟩ => ⟨S16384x1024x1, .i32⟩
  | .hbm, ⟨60, _⟩ => ⟨S16384x1024x1, .i32⟩
  | .hbm, ⟨61, _⟩ => ⟨S16384x1024x2, .i32⟩
  | .hbm, ⟨62, _⟩ => ⟨S16384x1024, .f32⟩
  | .hbm, ⟨63, _⟩ => ⟨S16384x2048, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1x1024 : S_.BroadcastsInDim S1x1024 (![] : Fin 0 → Fin S1x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  concatenates_S16384x1024_S16384x1024_S16384x2048_d1 : Shape.Concatenates [S16384x1024, S16384x1024] S16384x2048 1
  gather_S16384x256_S1024x1_S16384x1024_0_1_n_n_1_1_163841_wf : GatherDims.WF S16384x256 S1024x1 S16384x1024 [0] [1] [] [1] [] 1 ![16384, 1]
  gather_S1024x32_S16384x1024x2_S16384x1024_n_01_n_n_01_2_11_wf : GatherDims.WF S1024x32 S16384x1024x2 S16384x1024 [] [0, 1] [] [0, 1] [] 2 ![1, 1]

variable [Facts₀]

def gather_S16384x256_S1024x1_S16384x1024_0_1_n_n_1_1_163841 : GatherDims S16384x256 S1024x1 S16384x1024 where
  offsetDims := [0]
  collapsedSliceDims := [1]
  operandBatchingDims := []
  startIndicesBatchingDims := []
  startIndexMap := [1]
  indexVectorDim := 1
  sliceSizes := ![16384, 1]
  wf := gather_S16384x256_S1024x1_S16384x1024_0_1_n_n_1_1_163841_wf
def gather_S1024x32_S16384x1024x2_S16384x1024_n_01_n_n_01_2_11 : GatherDims S1024x32 S16384x1024x2 S16384x1024 where
  offsetDims := []
  collapsedSliceDims := [0, 1]
  operandBatchingDims := []
  startIndicesBatchingDims := []
  startIndexMap := [0, 1]
  indexVectorDim := 2
  sliceSizes := ![1, 1]
  wf := gather_S1024x32_S16384x1024x2_S16384x1024_n_01_n_n_01_2_11_wf

class Facts : Prop extends Facts₀ where

variable [Facts]
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefStages.lean ====
/- The reference's host program read one operation at a time. Every buffer of the program is written by exactly one
   of its 58 operations, and only after every operation that reads it, so the contents the run ends with satisfy one
   equation per operation: the written buffer holds the operation's function of the final contents of the buffers
   it reads. Stage by stage this identifies what each buffer ends holding with the stage of that name, a function
   of the argument arrays; the last line is the result buffer's. -/
import proofs.«424448_j26723286515898_3_alg».proof.Proof.RefRunP
import proofs.«424448_j26723286515898_3_alg».proof.Proof.RefReadP
import proofs.«424448_j26723286515898_3_alg».proof.Proof.LibSsa

noncomputable section

namespace Cert.ReferenceIdeal.Stages

open Cert.ReferenceIdeal Cert.ReferenceIdeal.Gen Cert.ReferenceIdeal.ValueP Idealize.ShloMosaic Idealize.ShloMosaic.TcCoe Idealize.SL.Sem
open Idealize.ShloMosaic.StableHlo Idealize.ShloMosaic.StableHlo.Ssa

variable {F : FTy → Type} [FloatOps F]

/-- The buffer each operation writes, in the operations' order. -/
abbrev W : List (Ref sig .tc) :=
  [main_c, main_v0, main_v1, main_c_0, main_v2, main_v3, main_v4, main_v5, main_v6, main_v7, main_v8, main_v9, main_v10, main_v11, main_v12, main_v13, main_cst, main_v14, main_v15, main_v16, main_v17, main_v18, main_v19, main_cst_1, main_v20, main_v21, main_c_2, main_v22, main_v23, main_c_3, main_v24, main_v25, main_v26, main_v27, main_v28, main_v29, main_v30, main_v31, main_c_4, main_v32, main_v33, main_c_5, main_v34, main_v35, main_v36, main_c_6, main_v37, main_v38, main_c_7, main_v39, main_v40, main_v41, main_v42, main_v43, main_v44, main_v45, main_v46, main_v47]

theorem writesOnly_cons {op : HloOp τ sig (Elt F)} {l : List (HloOp τ sig (Elt F))} {w : Ref sig .tc} {L : List (Ref sig .tc)}
    (h : op.writes = {Proc.devRef .tc w}) (hl : WritesOnly l L) : WritesOnly (op :: l) (w :: L) := ⟨h, hl⟩

theorem writesOnly_nil : WritesOnly ([] : List (HloOp τ sig (Elt F))) [] := trivial

/-- Each operation writes the one buffer the list names for it. -/
theorem hW : WritesOnly (ops (F := F)) W :=
  writesOnly_cons (nullary_writes ..) <|
  writesOnly_cons (unary_writes ..) <|
  writesOnly_cons (binary_writes ..) <|
  writesOnly_cons (nullary_writes ..) <|
  writesOnly_cons (unary_writes ..) <|
  writesOnly_cons (binary_writes ..) <|
  writesOnly_cons (ternary_writes ..) <|
  writesOnly_cons (unary_writes ..) <|
  writesOnly_cons (binary_writes ..) <|
  writesOnly_cons (unary_writes ..) <|
  writesOnly_cons (unary_writes ..) <|
  writesOnly_cons (binary_writes ..) <|
  writesOnly_cons (unary_writes ..) <|
  writesOnly_cons (unary_writes ..) <|
  writesOnly_cons (binary_writes ..) <|
  writesOnly_cons (binary_writes ..) <|
  writesOnly_cons (nullary_writes ..) <|
  writesOnly_cons (unary_writes ..) <|
  writesOnly_cons (binary_writes ..) <|
  writesOnly_cons (unary_writes ..) <|
  writesOnly_cons (unary_writes ..) <|
  writesOnly_cons (unary_writes ..) <|
  writesOnly_cons (binary_writes ..) <|
  writesOnly_cons (nullary_writes ..) <|
  writesOnly_cons (unary_writes ..) <|
  writesOnly_cons (binary_writes ..) <|
  writesOnly_cons (nullary_writes ..) <|
  writesOnly_cons (unary_writes ..) <|
  writesOnly_cons (binary_writes ..) <|
  writesOnly_cons (nullary_writes ..) <|
  writesOnly_cons (unary_writes ..) <|
  writesOnly_cons (binary_writes ..) <|
  writesOnly_cons (ternary_writes ..) <|
  writesOnly_cons (unary_writes ..) <|
  writesOnly_cons (binary_writes ..) <|
  writesOnly_cons (unary_writes ..) <|
  writesOnly_cons (nullary_writes ..) <|
  writesOnly_cons (unary_writes ..) <|
  writesOnly_cons (nullary_writes ..) <|
  writesOnly_cons (unary_writes ..) <|
  writesOnly_cons (binary_writes ..) <|
  writesOnly_cons (nullary_writes ..) <|
  writesOnly_cons (unary_writes ..) <|
  writesOnly_cons (binary_writes ..) <|
  writesOnly_cons (ternary_writes ..) <|
  writesOnly_cons (nullary_writes ..) <|
  writesOnly_cons (unary_writes ..) <|
  writesOnly_cons (binary_writes ..) <|
  writesOnly_cons (nullary_writes ..) <|
  writesOnly_cons (unary_writes ..) <|
  writesOnly_cons (binary_writes ..) <|
  writesOnly_cons (ternary_writes ..) <|
  writesOnly_cons (unary_writes ..) <|
  writesOnly_cons (unary_writes ..) <|
  writesOnly_cons (unary_writes ..) <|
  writesOnly_cons (binary_writes ..) <|
  writesOnly_cons (binary_writes ..) <|
  writesOnly_cons (binary_writes ..) <|
  writesOnly_nil

variable (V : Valuation τ sig (Elt F))

/-- No operation writes argument 0. -/
theorem st_main_arg0 : after (ops (F := F)) V (Proc.devRef .tc main_arg0) = V (Proc.devRef .tc main_arg0) :=
  after_arg ops W hW V main_arg0 (by decide)

/-- No operation writes argument 1. -/
theorem st_main_arg1 : after (ops (F := F)) V (Proc.devRef .tc main_arg1) = V (Proc.devRef .tc main_arg1) :=
  after_arg ops W hW V main_arg1 (by decide)

/-- No operation writes argument 2. -/
theorem st_main_arg2 : after (ops (F := F)) V (Proc.devRef .tc main_arg2) = V (Proc.devRef .tc main_arg2) :=
  after_arg ops W hW V main_arg2 (by decide)

/-- No operation writes argument 3. -/
theorem st_main_arg3 : after (ops (F := F)) V (Proc.devRef .tc main_arg3) = V (Proc.devRef .tc main_arg3) :=
  after_arg ops W hW V main_arg3 (by decide)

/-- No operation writes argument 4. -/
theorem st_main_arg4 : after (ops (F := F)) V (Proc.devRef .tc main_arg4) = V (Proc.devRef .tc main_arg4) :=
  after_arg ops W hW V main_arg4 (by decide)

/-- No operation writes argument 5. -/
theorem st_main_arg5 : after (ops (F := F)) V (Proc.devRef .tc main_arg5) = V (Proc.devRef .tc main_arg5) :=
  after_arg ops W hW V main_arg5 (by decide)

theorem st_main_c : after (ops (F := F)) V (Proc.devRef .tc main_c) = ReadP.val_main_c (F := F) := by
  rw [ssa_nullary ops W hW V 0 _ _ _ rfl (by decide)]; rfl

theorem st_main_v0 : after (ops (F := F)) V (Proc.devRef .tc main_v0) = ReadP.val_main_v0 (F := F) := by
  rw [ssa_unary ops W hW V 1 _ _ _ _ _ rfl (by decide) (by decide), st_main_c V]; rfl

theorem st_main_v1 : after (ops (F := F)) V (Proc.devRef .tc main_v1) = ReadP.val_main_v1 (F := F) (V (Proc.devRef .tc main_arg4)) := by
  rw [ssa_binary ops W hW V 2 _ _ _ _ _ _ _ rfl (by decide) (by decide) (by decide), st_main_arg4 V, st_main_v0 V]; rfl

theorem st_main_c_0 : after (ops (F := F)) V (Proc.devRef .tc main_c_0) = ReadP.val_main_c_0 (F := F) := by
  rw [ssa_nullary ops W hW V 3 _ _ _ rfl (by decide)]; rfl

theorem st_main_v2 : after (ops (F := F)) V (Proc.devRef .tc main_v2) = ReadP.val_main_v2 (F := F) := by
  rw [ssa_unary ops W hW V 4 _ _ _ _ _ rfl (by decide) (by decide), st_main_c_0 V]; rfl

theorem st_main_v3 : after (ops (F := F)) V (Proc.devRef .tc main_v3) = ReadP.val_main_v3 (F := F) (V (Proc.devRef .tc main_arg4)) := by
  rw [ssa_binary ops W hW V 5 _ _ _ _ _ _ _ rfl (by decide) (by decide) (by decide), st_main_arg4 V, st_main_v2 V]; rfl

theorem st_main_v4 : after (ops (F := F)) V (Proc.devRef .tc main_v4) = ReadP.val_main_v4 (F := F) (V (Proc.devRef .tc main_arg4)) := by
  rw [ssa_ternary ops W hW V 6 _ _ _ _ _ _ _ _ _ rfl (by decide) (by decide) (by decide) (by decide), st_main_v1 V, st_main_v3 V, st_main_arg4 V]; rfl

theorem st_main_v5 : after (ops (F := F)) V (Proc.devRef .tc main_v5) = ReadP.val_main_v5 (F := F) (V (Proc.devRef .tc main_arg4)) := by
  rw [ssa_unary ops W hW V 7 _ _ _ _ _ rfl (by decide) (by decide), st_main_v4 V]; rfl

theorem st_main_v6 : after (ops (F := F)) V (Proc.devRef .tc main_v6) = ReadP.val_main_v6 (F := F) (V (Proc.devRef .tc main_arg0)) (V (Proc.devRef .tc main_arg4)) := by
  rw [ssa_binary ops W hW V 8 _ _ _ _ _ _ _ rfl (by decide) (by decide) (by decide), st_main_arg0 V, st_main_v5 V]; rfl

theorem st_main_v7 : after (ops (F := F)) V (Proc.devRef .tc main_v7) = ReadP.val_main_v7 (F := F) (V (Proc.devRef .tc main_arg1)) := by
  rw [ssa_unary ops W hW V 9 _ _ _ _ _ rfl (by decide) (by decide), st_main_arg1 V]; rfl

theorem st_main_v8 : after (ops (F := F)) V (Proc.devRef .tc main_v8) = ReadP.val_main_v8 (F := F) (V (Proc.devRef .tc main_arg1)) := by
  rw [ssa_unary ops W hW V 10 _ _ _ _ _ rfl (by decide) (by decide), st_main_v7 V]; rfl

theorem st_main_v9 : after (ops (F := F)) V (Proc.devRef .tc main_v9) = ReadP.val_main_v9 (F := F) (V (Proc.devRef .tc main_arg0)) (V (Proc.devRef .tc main_arg1)) (V (Proc.devRef .tc main_arg4)) := by
  rw [ssa_binary ops W hW V 11 _ _ _ _ _ _ _ rfl (by decide) (by decide) (by decide), st_main_v6 V, st_main_v8 V]; rfl

theorem st_main_v10 : after (ops (F := F)) V (Proc.devRef .tc main_v10) = ReadP.val_main_v10 (F := F) (V (Proc.devRef .tc main_arg2)) := by
  rw [ssa_unary ops W hW V 12 _ _ _ _ _ rfl (by decide) (by decide), st_main_arg2 V]; rfl

theorem st_main_v11 : after (ops (F := F)) V (Proc.devRef .tc main_v11) = ReadP.val_main_v11 (F := F) (V (Proc.devRef .tc main_arg2)) := by
  rw [ssa_unary ops W hW V 13 _ _ _ _ _ rfl (by decide) (by decide), st_main_v10 V]; rfl

theorem st_main_v12 : after (ops (F := F)) V (Proc.devRef .tc main_v12) = ReadP.val_main_v12 (F := F) (V (Proc.devRef .tc main_arg0)) (V (Proc.devRef .tc main_arg1)) (V (Proc.devRef .tc main_arg2)) (V (Proc.devRef .tc main_arg4)) := by
  rw [ssa_binary ops W hW V 14 _ _ _ _ _ _ _ rfl (by decide) (by decide) (by decide), st_main_v9 V, st_main_v11 V]; rfl

theorem st_main_v13 : after (ops (F := F)) V (Proc.devRef .tc main_v13) = ReadP.val_main_v13 (F := F) (V (Proc.devRef .tc main_arg0)) (V (Proc.devRef .tc main_arg1)) (V (Proc.devRef .tc main_arg2)) (V (Proc.devRef .tc main_arg4)) := by
  rw [ssa_binary ops W hW V 15 _ _ _ _ _ _ _ rfl (by decide) (by decide) (by decide), st_main_v12 V]; rfl

theorem st_main_cst : after (ops (F := F)) V (Proc.devRef .tc main_cst) = ReadP.val_main_cst (F := F) := by
  rw [ssa_nullary ops W hW V 16 _ _ _ rfl (by decide)]; rfl

theorem st_main_v14 : after (ops (F := F)) V (Proc.devRef .tc main_v14) = ReadP.val_main_v14 (F := F) := by
  rw [ssa_unary ops W hW V 17 _ _ _ _ _ rfl (by decide) (by decide), st_main_cst V]; rfl

theorem st_main_v15 : after (ops (F := F)) V (Proc.devRef .tc main_v15) = ReadP.val_main_v15 (F := F) (V (Proc.devRef .tc main_arg0)) (V (Proc.devRef .tc main_arg1)) (V (Proc.devRef .tc main_arg2)) (V (Proc.devRef .tc main_arg4)) := by
  rw [ssa_binary ops W hW V 18 _ _ _ _ _ _ _ rfl (by decide) (by decide) (by decide), st_main_v14 V, st_main_v13 V]; rfl

theorem st_main_v16 : after (ops (F := F)) V (Proc.devRef .tc main_v16) = ReadP.val_main_v16 (F := F) (V (Proc.devRef .tc main_arg2)) := by
  rw [ssa_unary ops W hW V 19 _ _ _ _ _ rfl (by decide) (by decide), st_main_arg2 V]; rfl

theorem st_main_v17 : after (ops (F := F)) V (Proc.devRef .tc main_v17) = ReadP.val_main_v17 (F := F) (V (Proc.devRef .tc main_arg2)) := by
  rw [ssa_unary ops W hW V 20 _ _ _ _ _ rfl (by decide) (by decide), st_main_v16 V]; rfl

theorem st_main_v18 : after (ops (F := F)) V (Proc.devRef .tc main_v18) = ReadP.val_main_v18 (F := F) (V (Proc.devRef .tc main_arg2)) := by
  rw [ssa_unary ops W hW V 21 _ _ _ _ _ rfl (by decide) (by decide), st_main_v17 V]; rfl

theorem st_main_v19 : after (ops (F := F)) V (Proc.devRef .tc main_v19) = ReadP.val_main_v19 (F := F) (V (Proc.devRef .tc main_arg0)) (V (Proc.devRef .tc main_arg1)) (V (Proc.devRef .tc main_arg2)) (V (Proc.devRef .tc main_arg4)) := by
  rw [ssa_binary ops W hW V 22 _ _ _ _ _ _ _ rfl (by decide) (by decide) (by decide), st_main_v15 V, st_main_v18 V]; rfl

theorem st_main_cst_1 : after (ops (F := F)) V (Proc.devRef .tc main_cst_1) = ReadP.val_main_cst_1 (F := F) := by
  rw [ssa_nullary ops W hW V 23 _ _ _ rfl (by decide)]; rfl

theorem st_main_v20 : after (ops (F := F)) V (Proc.devRef .tc main_v20) = ReadP.val_main_v20 (F := F) := by
  rw [ssa_unary ops W hW V 24 _ _ _ _ _ rfl (by decide) (by decide), st_main_cst_1 V]; rfl

theorem st_main_v21 : after (ops (F := F)) V (Proc.devRef .tc main_v21) = ReadP.val_main_v21 (F := F) (V (Proc.devRef .tc main_arg0)) (V (Proc.devRef .tc main_arg1)) (V (Proc.devRef .tc main_arg2)) (V (Proc.devRef .tc main_arg4)) := by
  rw [ssa_binary ops W hW V 25 _ _ _ _ _ _ _ rfl (by decide) (by decide) (by decide), st_main_v19 V, st_main_v20 V]; rfl

theorem st_main_c_2 : after (ops (F := F)) V (Proc.devRef .tc main_c_2) = ReadP.val_main_c_2 (F := F) := by
  rw [ssa_nullary ops W hW V 26 _ _ _ rfl (by decide)]; rfl

theorem st_main_v22 : after (ops (F := F)) V (Proc.devRef .tc main_v22) = ReadP.val_main_v22 (F := F) := by
  rw [ssa_unary ops W hW V 27 _ _ _ _ _ rfl (by decide) (by decide), st_main_c_2 V]; rfl

theorem st_main_v23 : after (ops (F := F)) V (Proc.devRef .tc main_v23) = ReadP.val_main_v23 (F := F) (V (Proc.devRef .tc main_arg5)) := by
  rw [ssa_binary ops W hW V 28 _ _ _ _ _ _ _ rfl (by decide) (by decide) (by decide), st_main_arg5 V, st_main_v22 V]; rfl

theorem st_main_c_3 : after (ops (F := F)) V (Proc.devRef .tc main_c_3) = ReadP.val_main_c_3 (F := F) := by
  rw [ssa_nullary ops W hW V 29 _ _ _ rfl (by decide)]; rfl

theorem st_main_v24 : after (ops (F := F)) V (Proc.devRef .tc main_v24) = ReadP.val_main_v24 (F := F) := by
  rw [ssa_unary ops W hW V 30 _ _ _ _ _ rfl (by decide) (by decide), st_main_c_3 V]; rfl

theorem st_main_v25 : after (ops (F := F)) V (Proc.devRef .tc main_v25) = ReadP.val_main_v25 (F := F) (V (Proc.devRef .tc main_arg5)) := by
  rw [ssa_binary ops W hW V 31 _ _ _ _ _ _ _ rfl (by decide) (by decide) (by decide), st_main_arg5 V, st_main_v24 V]; rfl

theorem st_main_v26 : after (ops (F := F)) V (Proc.devRef .tc main_v26) = ReadP.val_main_v26 (F := F) (V (Proc.devRef .tc main_arg5)) := by
  rw [ssa_ternary ops W hW V 32 _ _ _ _ _ _ _ _ _ rfl (by decide) (by decide) (by decide) (by decide), st_main_v23 V, st_main_v25 V, st_main_arg5 V]; rfl

theorem st_main_v27 : after (ops (F := F)) V (Proc.devRef .tc main_v27) = ReadP.val_main_v27 (F := F) (V (Proc.devRef .tc main_arg5)) := by
  rw [ssa_unary ops W hW V 33 _ _ _ _ _ rfl (by decide) (by decide), st_main_v26 V]; rfl

theorem st_main_v28 : after (ops (F := F)) V (Proc.devRef .tc main_v28) = ReadP.val_main_v28 (F := F) (V (Proc.devRef .tc main_arg0)) (V (Proc.devRef .tc main_arg5)) := by
  rw [ssa_binary ops W hW V 34 _ _ _ _ _ _ _ rfl (by decide) (by decide) (by decide), st_main_arg0 V, st_main_v27 V]; rfl

theorem st_main_v29 : after (ops (F := F)) V (Proc.devRef .tc main_v29) = ReadP.val_main_v29 (F := F) (V (Proc.devRef .tc main_arg0)) (V (Proc.devRef .tc main_arg5)) := by
  rw [ssa_unary ops W hW V 35 _ _ _ _ _ rfl (by decide) (by decide), st_main_v28 V]; rfl

theorem st_main_v30 : after (ops (F := F)) V (Proc.devRef .tc main_v30) = ReadP.val_main_v30 (F := F) := by
  rw [ssa_nullary ops W hW V 36 _ _ _ rfl (by decide)]; rfl

theorem st_main_v31 : after (ops (F := F)) V (Proc.devRef .tc main_v31) = ReadP.val_main_v31 (F := F) := by
  rw [ssa_unary ops W hW V 37 _ _ _ _ _ rfl (by decide) (by decide), st_main_v30 V]; rfl

theorem st_main_c_4 : after (ops (F := F)) V (Proc.devRef .tc main_c_4) = ReadP.val_main_c_4 (F := F) := by
  rw [ssa_nullary ops W hW V 38 _ _ _ rfl (by decide)]; rfl

theorem st_main_v32 : after (ops (F := F)) V (Proc.devRef .tc main_v32) = ReadP.val_main_v32 (F := F) := by
  rw [ssa_unary ops W hW V 39 _ _ _ _ _ rfl (by decide) (by decide), st_main_c_4 V]; rfl

theorem st_main_v33 : after (ops (F := F)) V (Proc.devRef .tc main_v33) = ReadP.val_main_v33 (F := F) := by
  rw [ssa_binary ops W hW V 40 _ _ _ _ _ _ _ rfl (by decide) (by decide) (by decide), st_main_v31 V, st_main_v32 V]; rfl

theorem st_main_c_5 : after (ops (F := F)) V (Proc.devRef .tc main_c_5) = ReadP.val_main_c_5 (F := F) := by
  rw [ssa_nullary ops W hW V 41 _ _ _ rfl (by decide)]; rfl

theorem st_main_v34 : after (ops (F := F)) V (Proc.devRef .tc main_v34) = ReadP.val_main_v34 (F := F) := by
  rw [ssa_unary ops W hW V 42 _ _ _ _ _ rfl (by decide) (by decide), st_main_c_5 V]; rfl

theorem st_main_v35 : after (ops (F := F)) V (Proc.devRef .tc main_v35) = ReadP.val_main_v35 (F := F) := by
  rw [ssa_binary ops W hW V 43 _ _ _ _ _ _ _ rfl (by decide) (by decide) (by decide), st_main_v31 V, st_main_v34 V]; rfl

theorem st_main_v36 : after (ops (F := F)) V (Proc.devRef .tc main_v36) = ReadP.val_main_v36 (F := F) := by
  rw [ssa_ternary ops W hW V 44 _ _ _ _ _ _ _ _ _ rfl (by decide) (by decide) (by decide) (by decide), st_main_v33 V, st_main_v35 V, st_main_v31 V]; rfl

theorem st_main_c_6 : after (ops (F := F)) V (Proc.devRef .tc main_c_6) = ReadP.val_main_c_6 (F := F) := by
  rw [ssa_nullary ops W hW V 45 _ _ _ rfl (by decide)]; rfl

theorem st_main_v37 : after (ops (F := F)) V (Proc.devRef .tc main_v37) = ReadP.val_main_v37 (F := F) := by
  rw [ssa_unary ops W hW V 46 _ _ _ _ _ rfl (by decide) (by decide), st_main_c_6 V]; rfl

theorem st_main_v38 : after (ops (F := F)) V (Proc.devRef .tc main_v38) = ReadP.val_main_v38 (F := F) (V (Proc.devRef .tc main_arg0)) (V (Proc.devRef .tc main_arg5)) := by
  rw [ssa_binary ops W hW V 47 _ _ _ _ _ _ _ rfl (by decide) (by decide) (by decide), st_main_v29 V, st_main_v37 V]; rfl

theorem st_main_c_7 : after (ops (F := F)) V (Proc.devRef .tc main_c_7) = ReadP.val_main_c_7 (F := F) := by
  rw [ssa_nullary ops W hW V 48 _ _ _ rfl (by decide)]; rfl

theorem st_main_v39 : after (ops (F := F)) V (Proc.devRef .tc main_v39) = ReadP.val_main_v39 (F := F) := by
  rw [ssa_unary ops W hW V 49 _ _ _ _ _ rfl (by decide) (by decide), st_main_c_7 V]; rfl

theorem st_main_v40 : after (ops (F := F)) V (Proc.devRef .tc main_v40) = ReadP.val_main_v40 (F := F) (V (Proc.devRef .tc main_arg0)) (V (Proc.devRef .tc main_arg5)) := by
  rw [ssa_binary ops W hW V 50 _ _ _ _ _ _ _ rfl (by decide) (by decide) (by decide), st_main_v29 V, st_main_v39 V]; rfl

theorem st_main_v41 : after (ops (F := F)) V (Proc.devRef .tc main_v41) = ReadP.val_main_v41 (F := F) (V (Proc.devRef .tc main_arg0)) (V (Proc.devRef .tc main_arg5)) := by
  rw [ssa_ternary ops W hW V 51 _ _ _ _ _ _ _ _ _ rfl (by decide) (by decide) (by decide) (by decide), st_main_v38 V, st_main_v40 V, st_main_v29 V]; rfl

theorem st_main_v42 : after (ops (F := F)) V (Proc.devRef .tc main_v42) = ReadP.val_main_v42 (F := F) := by
  rw [ssa_unary ops W hW V 52 _ _ _ _ _ rfl (by decide) (by decide), st_main_v36 V]; rfl

theorem st_main_v43 : after (ops (F := F)) V (Proc.devRef .tc main_v43) = ReadP.val_main_v43 (F := F) := by
  rw [ssa_unary ops W hW V 53 _ _ _ _ _ rfl (by decide) (by decide), st_main_v42 V]; rfl

theorem st_main_v44 : after (ops (F := F)) V (Proc.devRef .tc main_v44) = ReadP.val_main_v44 (F := F) (V (Proc.devRef .tc main_arg0)) (V (Proc.devRef .tc main_arg5)) := by
  rw [ssa_unary ops W hW V 54 _ _ _ _ _ rfl (by decide) (by decide), st_main_v41 V]; rfl

theorem st_main_v45 : after (ops (F := F)) V (Proc.devRef .tc main_v45) = ReadP.val_main_v45 (F := F) (V (Proc.devRef .tc main_arg0)) (V (Proc.devRef .tc main_arg5)) := by
  rw [ssa_binary ops W hW V 55 _ _ _ _ _ _ _ rfl (by decide) (by decide) (by decide), st_main_v43 V, st_main_v44 V]; rfl

theorem st_main_v46 : after (ops (F := F)) V (Proc.devRef .tc main_v46) = ReadP.val_main_v46 (F := F) (V (Proc.devRef .tc main_arg0)) (V (Proc.devRef .tc main_arg3)) (V (Proc.devRef .tc main_arg5)) := by
  rw [ssa_binary ops W hW V 56 _ _ _ _ _ _ _ rfl (by decide) (by decide) (by decide), st_main_arg3 V, st_main_v45 V]; rfl

theorem st_main_v47 : after (ops (F := F)) V (Proc.devRef .tc main_v47) = ReadP.val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ssa_binary ops W hW V 57 _ _ _ _ _ _ _ rfl (by decide) (by decide) (by decide), st_main_v21 V, st_main_v46 V]; rfl

end Cert.ReferenceIdeal.Stages

end
-- ==== Proof.Spec.lean ====
/-
  The leaf layer's result as ONE function of the argument arrays, index by index, and the scalar laws that
  join the two programs' spellings of it.

  The result has 16384 rows (samples) and 2048 columns: columns 0..1023 are the Gaussian leaves, columns
  1024..2047 the categorical leaves.
  * Gaussian leaf j at sample r: with a = x[r, g_j] the continuous feature its scope g_j selects,
      -1/2 · ((a - μ_j) / σ_j)² - log σ_j - c,      c the literal 0x3F6B3F8E (= ½·log 2π rounded to f32).
  * Categorical leaf j at sample r: logp[j, k] where k is the class the feature x[r, s_j] holds,
      read as an integer (rounded toward zero).
  The domain (`Dom`): every float entry finite, σ > 0, Gaussian scopes in [0,128), categorical scopes in
  [128,256), and every categorical feature's class in [0,32).
-/
import Idealize.ShloMosaic.PureOps.Ideal
import Idealize.ShloMosaic.PureOps.Ideal.Laws
import Idealize.ShloMosaic.Lib.ValueIdx

noncomputable section

namespace Cert.Leaves

open Idealize.ShloMosaic Idealize.ShloMosaic.ValueIdx

abbrev SX : Shape := ⟨2, ![16384, 256]⟩
abbrev SV : Shape := ⟨1, ![1024]⟩
abbrev SL : Shape := ⟨2, ![1024, 32]⟩
abbrev SO : Shape := ⟨2, ![16384, 2048]⟩

/-- The literal -1/2. -/
abbrev cHalf : EReal := Ideal.ofBits .f32 0xBF000000#32
/-- The literal the two programs share for ½·log 2π. -/
abbrev cLog : EReal := Ideal.ofBits .f32 0x3F6B3F8E#32
/-- The literal 1. -/
abbrev cOne : EReal := Ideal.ofBits .f32 0x3F800000#32

/-- The column of `x` a scope word selects (scope words of the domain are below 256, where this is the word). -/
def col (w : BitVec 32) : Fin 256 := ⟨w.toNat % 256, Nat.mod_lt _ (by decide)⟩

/-- The class a categorical feature holds: its value read as an integer, rounded toward zero. -/
def cls (v : EReal) : Fin 32 := ⟨(Ideal.fptosi 32 v).toNat % 32, Nat.mod_lt _ (by decide)⟩

/-- A Gaussian leaf's log-density, the reference's grouping: ((-½·z²) - log σ) - c with z = (a - μ)/σ. -/
def gaussR (a mu s : EReal) : EReal :=
  ((cHalf * (Ideal.div (a - mu) s * Ideal.div (a - mu) s)) - Ideal.log s) - cLog

/-- The same, the kernel's grouping: -½·z² + (-(log σ) - c) with z = (a - μ)·(1/σ). -/
def gaussK (a mu s : EReal) : EReal :=
  cHalf * (((a - mu) * Ideal.div cOne s) * ((a - mu) * Ideal.div cOne s)) + (-(Ideal.log s) - cLog)

/-- THE RESULT, index by index. -/
def G (x : SX.Idx → EReal) (mu sd : SV.Idx → EReal) (lp : SL.Idx → EReal) (gs cs : SV.Idx → BitVec 32) :
    SO.Idx → EReal := fun i =>
  if h : (i 1).val < 1024 then
    gaussR (x (ix2 (⟨(i 0).val, idx2_lt0 i⟩ : Fin 16384) (col (gs (ix1 (⟨(i 1).val, h⟩ : Fin 1024)))))) (mu (ix1 (⟨(i 1).val, h⟩ : Fin 1024)))
      (sd (ix1 (⟨(i 1).val, h⟩ : Fin 1024)))
  else
    lp (ix2 (⟨(i 1).val - 1024, by have := idx2_lt1 i; omega⟩ : Fin 1024)
      (cls (x (ix2 (⟨(i 0).val, idx2_lt0 i⟩ : Fin 16384) (col (cs (ix1 (⟨(i 1).val - 1024, by have := idx2_lt1 i; omega⟩ : Fin 1024))))))))

/-- The domain the claim is stated on. -/
structure Dom (x : SX.Idx → EReal) (mu sd : SV.Idx → EReal) (lp : SL.Idx → EReal) (gs cs : SV.Idx → BitVec 32) : Prop where
  x_fin : ∀ i, ∃ r : ℝ, x i = (r : EReal)
  mu_fin : ∀ i, ∃ r : ℝ, mu i = (r : EReal)
  sd_pos : ∀ i, ∃ r : ℝ, sd i = (r : EReal) ∧ 0 < r
  lp_fin : ∀ i, ∃ r : ℝ, lp i = (r : EReal)
  gs_lt : ∀ j : Fin 1024, (gs (ix1 j)).toNat < 128
  cs_ge : ∀ j : Fin 1024, 128 ≤ (cs (ix1 j)).toNat
  cs_lt : ∀ j : Fin 1024, (cs (ix1 j)).toNat < 256
  cls_lt : ∀ (r : Fin 16384) (f : Fin 128), (Ideal.fptosi 32 (x (ix2 r (⟨128 + f.val, by omega⟩ : Fin 256)))).toNat < 32

/-! ## Scalar laws -/

/-- The literal 0x3F800000 denotes 1. -/
theorem cOne_eq : cOne = ((1 : ℝ) : EReal) := by
  simp [Ideal.ofBits, Ideal.ieee, -EReal.coe_mul]; norm_num

/-- The literal 0xBF000000 denotes -1/2. -/
theorem cHalf_eq : cHalf = ((-(1/2) : ℝ) : EReal) := by
  simp [Ideal.ofBits, Ideal.ieee, -EReal.coe_mul]; norm_num

/-- The literal 0x3F6B3F8E denotes a finite number (its value is not needed). -/
theorem cLog_fin : ∃ r : ℝ, cLog = (r : EReal) := by
  simp [Ideal.ofBits, Ideal.ieee, -EReal.coe_mul]

/-- The two groupings agree on finite a, μ and positive finite σ. -/
theorem gaussK_eq_gaussR (a mu s : ℝ) (hs : 0 < s) :
    gaussK (a : EReal) (mu : EReal) (s : EReal) = gaussR (a : EReal) (mu : EReal) (s : EReal) := by
  -- all three literals and log σ are finite reals, both divisions are products with 1/σ,
  -- so the equation is an identity of the real field
  obtain ⟨c, hc⟩ := cLog_fin
  have hlog : Ideal.log (s : EReal) = ((Real.log s : ℝ) : EReal) := by
    rw [Ideal.log_coe, if_neg (not_le.mpr hs)]
  unfold gaussK gaussR
  rw [hc, cOne_eq, cHalf_eq, hlog, Ideal.div_coe hs.ne', Ideal.div_coe hs.ne']
  simp only [← EReal.coe_mul, ← EReal.coe_sub, ← EReal.coe_add, ← EReal.coe_neg]
  rw [EReal.coe_eq_coe_iff]
  ring

/-- A finite number minus itself is zero. -/
theorem sub_self_coe (a : ℝ) : ((a : EReal) - (a : EReal)) = 0 := by
  rw [← EReal.coe_sub, sub_self, EReal.coe_zero]

/-- A sum against a one-hot column selects one term (no finiteness needed: 0 annihilates on the extended reals). -/
theorem sum_mul_onehot {n : Nat} (f : Fin n → EReal) (a : Fin n) :
    (∑ k : Fin n, f k * (if k = a then (1 : EReal) else 0)) = f a := by
  rw [Finset.sum_eq_single a]
  · rw [if_pos rfl, mul_one]
  · intro b _ hb
    rw [if_neg hb, mul_zero]
  · intro h
    exact absurd (Finset.mem_univ a) h

/-- The same with the one-hot factor on the left. -/
theorem sum_onehot_mul {n : Nat} (f : Fin n → EReal) (a : Fin n) :
    (∑ k : Fin n, (if k = a then (1 : EReal) else 0) * f k) = f a := by
  rw [Finset.sum_eq_single a]
  · rw [if_pos rfl, one_mul]
  · intro b _ hb
    rw [if_neg hb, zero_mul]
  · intro h
    exact absurd (Finset.mem_univ a) h

end Cert.Leaves

end
-- ==== Proof.PreFacts.lean ====
/-
  The precondition, decoded: the printed predicate being all ones gives the domain `Dom` of the argument arrays
  (every float finite, σ > 0, the scopes in their halves of the feature axis, every categorical feature's class
  below 32).

  The predicate is a conjunction of eleven "for all elements" tests. Read at its one index, the conjunction splits
  into its conjuncts, each "for all" gives its comparison at every element, and each comparison says of the
  element what the domain asks: |v| < +∞ that v is a real number, v > 0 that the real number is positive, a
  word in [lo, hi) read signed (0 ≤ lo) that it is in [lo, hi) read unsigned. The class tests read the slice
  [0:16384, 128:256] of x, whose column f is column 128 + f of x.
-/
import proofs.«424448_j26723286515898_3_alg».proof.Pre_finite_inputs
import proofs.«424448_j26723286515898_3_alg».proof.Proof.Spec
import Idealize.ShloMosaic.Lib.ReduceAll
import Idealize.ShloMosaic.Lib.ValueIdx
import Idealize.ShloMosaic.Lib.Pipeline.Value

noncomputable section

namespace Cert.Leaves

open Idealize.ShloMosaic Idealize.ShloMosaic.ValueIdx

namespace PreFacts

/-- A truth value's bit is 1 exactly when it is true. -/
theorem ofBool_one (b : Bool) : BitVec.ofBool b = 1#1 ↔ b = true := by cases b <;> decide

/-- The pattern 0x7F800000 is +∞. -/
theorem inf_bits : Ideal.ofBits .f32 0x7F800000#32 = (⊤ : EReal) := by
  simp [Ideal.ofBits, Ideal.ieee]

/-- The pattern 0 is 0. -/
theorem zero_bits : Ideal.ofBits .f32 0x00000000#32 = (0 : EReal) := by
  simp [Ideal.ofBits, Ideal.ieee]

/-- |v| < +∞ says v is a real number: the absolute value of either infinity is +∞. -/
theorem fin_of_abs_lt (v : EReal) (h : Ideal.cmp .olt (max v (-v)) (Ideal.ofBits .f32 0x7F800000#32) = 1#1) :
    ∃ r : ℝ, v = (r : EReal) := by
  rw [inf_bits] at h
  induction v using EReal.rec with
  | bot => exact absurd h (by simp [Ideal.cmp])
  | coe r => exact ⟨r, rfl⟩
  | top => exact absurd h (by simp [Ideal.cmp])

/-- A real number that tests above 0 is positive. -/
theorem pos_of_gt (v : EReal) (hv : ∃ r : ℝ, v = (r : EReal)) (h : Ideal.cmp .ogt v (Ideal.ofBits .f32 0x00000000#32) = 1#1) :
    ∃ r : ℝ, v = (r : EReal) ∧ 0 < r := by
  obtain ⟨r, rfl⟩ := hv
  rw [zero_bits] at h
  refine ⟨r, rfl, ?_⟩
  simp only [Ideal.cmp, ofBool_one, decide_eq_true_eq] at h
  exact_mod_cast h

/-- A word in [lo, hi) read signed, with 0 ≤ lo and hi below 2³¹, is in [lo, hi) read unsigned. -/
theorem toNat_range (w : BitVec 32) (lo hi : Nat) (hlo : lo < 2 ^ 31) (hhi : hi < 2 ^ 31)
    (h0 : IntOp.cmpi .sge w (BitVec.ofNat 32 lo) = 1#1) (h1 : IntOp.cmpi .slt w (BitVec.ofNat 32 hi) = 1#1) :
    lo ≤ w.toNat ∧ w.toNat < hi := by
  rw [IntOp.cmpi_sge] at h0
  rw [IntOp.cmpi_slt] at h1
  have e0 : (BitVec.ofNat 32 lo).toInt = lo := by
    rw [BitVec.toInt_ofNat']; exact Int.bmod_eq_of_le (by omega) (by omega)
  have e1 : (BitVec.ofNat 32 hi).toInt = hi := by
    rw [BitVec.toInt_ofNat']; exact Int.bmod_eq_of_le (by omega) (by omega)
  rw [e0] at h0
  rw [e1] at h1
  have hc := BitVec.toInt_eq_toNat_cond w
  have hl := w.isLt
  split at hc <;> omega

/-- The scalar shape has one index. -/
instance subsingleton_scalar_idx : Subsingleton Cert.Pre_finite_inputs.S_.Idx := ⟨fun a b => funext fun d => d.elim0⟩

/-- A conjunction of one-bit arrays at an index is the conjunction of the bits. -/
theorem andi_at {s : Shape} (a b : IVec s 1) (i : s.Idx) : andi a b i = 1#1 ↔ a i = 1#1 ∧ b i = 1#1 :=
  IntOp.andi_eq_one

section
variable [Cert.Pre_finite_inputs.Facts]
open Cert.Pre_finite_inputs Cert.Pre_finite_inputs.Facts

/-- Column f of the slice [0:16384, 128:256] of x is column 128 + f of x. -/
theorem slice_at (x : FVec Ideal S16384x256 .f32) (r : Fin 16384) (f : Fin 128) :
    extractStridedSlice S16384x128 ![0, 128] x slices_S16384x256_S16384x128_0_128 (ix2 r f)
      = x (ix2 r (⟨128 + f.val, by omega⟩ : Fin 256)) :=
  extractStridedSlice_apply _ x _ _ _ (fun a => by
    match a with
    | ⟨0, _⟩ => exact (Nat.zero_add _).symm
    | ⟨1, _⟩ => rfl)

end

end PreFacts

open PreFacts in
/-- The printed precondition all ones gives the domain. -/
theorem dom_of_pre [Cert.Pre_finite_inputs.Facts]
    (x : FVec Ideal Cert.Pre_finite_inputs.S16384x256 .f32) (mu sd : FVec Ideal Cert.Pre_finite_inputs.S1024 .f32)
    (lp : FVec Ideal Cert.Pre_finite_inputs.S1024x32 .f32) (gs cs : IVec Cert.Pre_finite_inputs.S1024 32)
    (h : Cert.Pre_finite_inputs.fn (F := Ideal) x mu sd lp gs cs = fun _ => 1#1) :
    Dom x mu sd lp gs cs := by
  -- the predicate at its one index: a conjunction of eleven "for all" tests
  have e := congrFun h ValueIdx.ix0
  dsimp only [Cert.Pre_finite_inputs.fn, Cert.Pre_finite_inputs.fn_part1, Cert.Pre_finite_inputs.fn_part2,
    Cert.Pre_finite_inputs.fn_part3] at e
  simp only [andi_at] at e
  obtain ⟨⟨⟨⟨⟨⟨⟨⟨⟨⟨h1, h2⟩, h3⟩, h4⟩, h5⟩, h6⟩, h7⟩, h8⟩, h9⟩, h10⟩, h11⟩ := e
  -- each "for all" at every element
  have H1 := Host.reduce_andi_all _ _ _ _ _ h1
  have H2 := Host.reduce_andi_all _ _ _ _ _ h2
  have H3 := Host.reduce_andi_all _ _ _ _ _ h3
  have H4 := Host.reduce_andi_all _ _ _ _ _ h4
  have H5 := Host.reduce_andi_all _ _ _ _ _ h5
  have H6 := Host.reduce_andi_all _ _ _ _ _ h6
  have H7 := Host.reduce_andi_all _ _ _ _ _ h7
  have H8 := Host.reduce_andi_all _ _ _ _ _ h8
  have H9 := Host.reduce_andi_all _ _ _ _ _ h9
  have H10 := Host.reduce_andi_all _ _ _ _ _ h10
  have H11 := Host.reduce_andi_all _ _ _ _ _ h11
  have sdfin : ∀ i, ∃ r : ℝ, sd i = (r : EReal) := fun i => fin_of_abs_lt _ (H3 i)
  exact {
    x_fin := fun i => fin_of_abs_lt _ (H1 i)
    mu_fin := fun i => fin_of_abs_lt _ (H2 i)
    sd_pos := fun i => pos_of_gt _ (sdfin i) (H5 i)
    lp_fin := fun i => fin_of_abs_lt _ (H4 i)
    gs_lt := fun j => (toNat_range _ 0 128 (by norm_num) (by norm_num) (H6 (ix1 j)) (H7 (ix1 j))).2
    cs_ge := fun j => (toNat_range _ 128 256 (by norm_num) (by norm_num) (H8 (ix1 j)) (H9 (ix1 j))).1
    cs_lt := fun j => (toNat_range _ 128 256 (by norm_num) (by norm_num) (H8 (ix1 j)) (H9 (ix1 j))).2
    cls_lt := fun r f => by
      have a := H10 (ix2 r f)
      have b := H11 (ix2 r f)
      exact (toNat_range (Ideal.fptosi 32 (x (ix2 r (⟨128 + f.val, by omega⟩ : Fin 256)))) 0 32 (by norm_num) (by norm_num)
        (by rw [← slice_at x r f]; exact a) (by rw [← slice_at x r f]; exact b)).2 }

end Cert.Leaves

end
-- ==== Proof.Glue.lean ====
/-
  The arrays the kernel's windows stage, as the host operations before the launch leave them, read at an index as
  functions of the argument arrays:
  * the stacked one-hot [256, 1024]: row k, leaf j is 1 exactly when k mod 128 is leaf j's Gaussian scope
    (both halves of the stack carry the same one-hot);
  * the rows μ, 1/σ and -(log σ) - c.
-/
import proofs.«424448_j26723286515898_3_alg».proof.Proof.Gen.KernelIdeal.Frame
import proofs.«424448_j26723286515898_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

namespace Cert.Leaves

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The argument arrays on core `c` -/

abbrev aX (c : Dev nD) : SX.Idx → EReal := m ((c : Thread nD τ).loc main_arg0)
abbrev aMu (c : Dev nD) : SV.Idx → EReal := m ((c : Thread nD τ).loc main_arg1)
abbrev aSd (c : Dev nD) : SV.Idx → EReal := m ((c : Thread nD τ).loc main_arg2)
abbrev aLp (c : Dev nD) : SL.Idx → EReal := m ((c : Thread nD τ).loc main_arg3)
abbrev aGs (c : Dev nD) : SV.Idx → BitVec 32 := m ((c : Thread nD τ).loc main_arg4)
abbrev aCs (c : Dev nD) : SV.Idx → BitVec 32 := m ((c : Thread nD τ).loc main_arg5)

/-! ## The staged arrays as the region finds them -/

abbrev wOh (c : Dev nD) : S256x1024.Idx → EReal := V m c main_v11
abbrev wMhi (c : Dev nD) : S4096x1024.Idx → EReal := V m c main_v34
abbrev wMlo (c : Dev nD) : S4096x1024.Idx → EReal := V m c main_v37
abbrev wMu (c : Dev nD) : S1x1024.Idx → EReal := V m c main_v18
abbrev wInv (c : Dev nD) : S1x1024.Idx → EReal := V m c main_v21
abbrev wGc (c : Dev nD) : S1x1024.Idx → EReal := V m c main_v26

/-- The region finds `x` as launched. -/
theorem wX_eq (c : Dev nD) : (V m c main_arg0 : S16384x256.Idx → EReal) = aX m c := V_main_arg0 m c

/-! ## The stacked one-hot -/

/-- The scope words as the host clamps them into [0, 127]. -/
private abbrev gClip (g : S1024.Idx → BitVec 32) : S1024.Idx → BitVec 32 :=
  minsi (broadcastInDim S1024 ![] bcast_S_S1024 (constantI S_ 32 127#32))
    (maxsi (broadcastInDim S1024 ![] bcast_S_S1024 (constantI S_ 32 0#32)) g)

/-- One half of the stack: row i, leaf j compares i with leaf j's clamped scope. -/
private abbrev ohHalf (g : S1024.Idx → BitVec 32) : S128x1024.Idx → EReal :=
  uitofp (F := Ideal) .bf16 (cmpi .eq
    (broadcastInDim S128x1024 ![0, 1] bcast_S128x1_S128x1024_0_1
      (broadcastInDim S128x1 ![0] bcast_S128_S128x1_0 (iotaInDim S128 32 0)))
    (broadcastInDim S128x1024 ![0, 1] bcast_S1x1024_S128x1024_0_1
      (broadcastInDim S1x1024 ![1] bcast_S1024_S1x1024_1 (gClip g))))

/-- The staged one-hot is the half stacked on itself. -/
private theorem wOh_eq (c : Dev nD) :
    (V m c main_v11 : S256x1024.Idx → EReal)
      = concatenate S256x1024 0 [⟨S128x1024, ohHalf (aGs m c)⟩, ⟨S128x1024, ohHalf (aGs m c)⟩]
          concatenates_S128x1024_S128x1024_S256x1024_d0 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- A column vector broadcast along the leaves reads its row's entry. -/
private theorem bcCol_apply {α : Type} (y : S128.Idx → α) (i : Fin 128) (j : Fin 1024) :
    broadcastInDim S128x1024 ![0, 1] bcast_S128x1_S128x1024_0_1
      (broadcastInDim S128x1 ![0] bcast_S128_S128x1_0 y) (ix2 i j) = y (ix1 i) := by
  refine (broadcastInDim_apply _ bcast_S128x1_S128x1024_0_1 _ (ix2 i j) (ix2 i (0 : Fin 1)) (fun a => match a with
    | ⟨0, _⟩ => by show i.val = if (128 : Nat) = 1 then 0 else i.val; rw [if_neg (by decide)]
    | ⟨1, _⟩ => by show 0 = if (1 : Nat) = 1 then 0 else j.val; rw [if_pos rfl])).trans ?_
  exact broadcastInDim_apply _ bcast_S128_S128x1_0 y (ix2 i (0 : Fin 1)) (ix1 i) (fun a => match a with
    | ⟨0, _⟩ => by show i.val = if (128 : Nat) = 1 then 0 else i.val; rw [if_neg (by decide)])

/-- A row vector broadcast along the rows reads its leaf's entry. -/
private theorem bcRow_apply {α : Type} (y : S1024.Idx → α) (i : Fin 128) (j : Fin 1024) :
    broadcastInDim S128x1024 ![0, 1] bcast_S1x1024_S128x1024_0_1
      (broadcastInDim S1x1024 ![1] bcast_S1024_S1x1024_1 y) (ix2 i j) = y (ix1 j) := by
  refine (broadcastInDim_apply _ bcast_S1x1024_S128x1024_0_1 _ (ix2 i j) (ix2 (0 : Fin 1) j) (fun a => match a with
    | ⟨0, _⟩ => by show 0 = if (1 : Nat) = 1 then 0 else i.val; rw [if_pos rfl]
    | ⟨1, _⟩ => by show j.val = if (1024 : Nat) = 1 then 0 else j.val; rw [if_neg (by decide)])).trans ?_
  exact broadcastInDim_apply _ bcast_S1024_S1x1024_1 y (ix2 (0 : Fin 1) j) (ix1 j) (fun a => match a with
    | ⟨0, _⟩ => by show j.val = if (1024 : Nat) = 1 then 0 else j.val; rw [if_neg (by decide)])

/-- Clamping into [0, 127] leaves a word below 128 as it is. -/
private theorem clip_id (w : BitVec 32) (h : w.toNat < 128) : IntOp.minsi 127#32 (IntOp.maxsi 0#32 w) = w := by
  have hw : w.toInt = (w.toNat : Int) := BitVec.toInt_eq_toNat_of_lt (by omega)
  have h0 : (0#32 : BitVec 32).toInt = 0 := BitVec.toInt_zero
  have h127 : (127#32 : BitVec 32).toInt = 127 := by decide
  have h1 : w.slt 0#32 = false := by
    rw [BitVec.slt_eq_decide, hw, h0]; exact decide_eq_false (by omega)
  have e1 : IntOp.maxsi 0#32 w = w := by unfold IntOp.maxsi; rw [h1]; rfl
  have h2 : (127#32 : BitVec 32).slt w = false := by
    rw [BitVec.slt_eq_decide, hw, h127]; exact decide_eq_false (by omega)
  rw [e1]; unfold IntOp.minsi; rw [h2]; rfl

/-- On a scope word below 128 the clamp is the identity. -/
private theorem gClip_apply (g : S1024.Idx → BitVec 32) (j : Fin 1024) (h : (g (ix1 j)).toNat < 128) :
    gClip g (ix1 j) = g (ix1 j) := by
  show IntOp.minsi (broadcastInDim S1024 ![] bcast_S_S1024 (constantI S_ 32 127#32) (ix1 j))
    (IntOp.maxsi (broadcastInDim S1024 ![] bcast_S_S1024 (constantI S_ 32 0#32) (ix1 j)) (g (ix1 j))) = _
  rw [broadcastInDim_scalar_apply, broadcastInDim_scalar_apply]
  exact clip_id _ h

/-- The comparison's bit as an extended real. -/
private theorem uitofp_cmpi_eq (x y : BitVec 32) :
    (FloatOps.uitofp (F := Ideal) .bf16 (IntOp.cmpi .eq x y) : EReal) = if x = y then (1 : EReal) else 0 := by
  by_cases h : x = y
  · subst h
    rw [if_pos rfl]
    have e : IntOp.cmpi .eq x x = 1#1 := by
      show BitVec.ofBool (x == x) = 1#1
      rw [beq_self_eq_true]; rfl
    rw [e]
    show (((1 : ℕ) : ℝ) : EReal) = 1
    rw [Nat.cast_one, EReal.coe_one]
  · rw [if_neg h]
    have e : IntOp.cmpi .eq x y = 0#1 := by
      show BitVec.ofBool (x == y) = 0#1
      rw [beq_eq_false_iff_ne.mpr h]; rfl
    rw [e]
    show (((0 : ℕ) : ℝ) : EReal) = 0
    rw [Nat.cast_zero, EReal.coe_zero]

/-- The half at row i, leaf j: 1 exactly when i is leaf j's scope. -/
private theorem ohHalf_apply (g : S1024.Idx → BitVec 32) (i : Fin 128) (j : Fin 1024) (h : (g (ix1 j)).toNat < 128) :
    ohHalf g (ix2 i j) = if i.val = (g (ix1 j)).toNat then (1 : EReal) else 0 := by
  show (FloatOps.uitofp (F := Ideal) .bf16 (IntOp.cmpi .eq
    (broadcastInDim S128x1024 ![0, 1] bcast_S128x1_S128x1024_0_1
      (broadcastInDim S128x1 ![0] bcast_S128_S128x1_0 (iotaInDim S128 32 0)) (ix2 i j))
    (broadcastInDim S128x1024 ![0, 1] bcast_S1x1024_S128x1024_0_1
      (broadcastInDim S1x1024 ![1] bcast_S1024_S1x1024_1 (gClip g)) (ix2 i j))) : EReal) = _
  rw [bcCol_apply, bcRow_apply, gClip_apply g j h, uitofp_cmpi_eq]
  show (if BitVec.ofNat 32 i.val = g (ix1 j) then (1 : EReal) else 0) = _
  have hi : i.val < 2 ^ 32 := by have := i.isLt; omega
  have e : (BitVec.ofNat 32 i.val = g (ix1 j)) ↔ (i.val = (g (ix1 j)).toNat) := by
    rw [BitVec.toNat_eq, BitVec.toNat_ofNat, Nat.mod_eq_of_lt hi]
  by_cases hh : i.val = (g (ix1 j)).toNat
  · rw [if_pos hh, if_pos (e.mpr hh)]
  · rw [if_neg hh, if_neg (fun q => hh (e.mp q))]

/-- The stacked one-hot of the Gaussian scopes. -/
theorem wOh_apply (c : Dev nD) (hg : ∀ j : Fin 1024, (aGs m c (ix1 j)).toNat < 128) (k : Fin 256) (j : Fin 1024) :
    wOh m c (ix2 k j) = if k.val % 128 = (aGs m c (ix1 j)).toNat then (1 : EReal) else 0 := by
  show (V m c main_v11 : S256x1024.Idx → EReal) (ix2 k j) = _
  rw [wOh_eq]
  by_cases hk : k.val < 128
  · refine (concatenate_pair_apply_left (t := S256x1024) (s₁ := S128x1024) (s₂ := S128x1024) (0 : Fin 2) _ _ concatenates_S128x1024_S128x1024_S256x1024_d0 (ix2 k j) rfl
      (ix2 (⟨k.val, hk⟩ : Fin 128) j) (fun b => match b with
        | ⟨0, _⟩ => rfl
        | ⟨1, _⟩ => rfl)).trans ?_
    rw [ohHalf_apply _ _ _ (hg j)]
    have e : k.val % 128 = k.val := Nat.mod_eq_of_lt hk
    rw [e]
  · have hk2 : k.val - 128 < 128 := by have := k.isLt; omega
    refine (concatenate_pair_apply_right (t := S256x1024) (s₁ := S128x1024) (s₂ := S128x1024) (0 : Fin 2) _ _ concatenates_S128x1024_S128x1024_S256x1024_d0 (ix2 k j) rfl rfl
      (ix2 (⟨k.val - 128, hk2⟩ : Fin 128) j) (fun b => match b with
        | ⟨0, _⟩ => fun hb => absurd rfl hb
        | ⟨1, _⟩ => fun _ => rfl) (by show k.val - 128 + 128 = k.val; omega)).trans ?_
    rw [ohHalf_apply _ _ _ (hg j)]
    have e : k.val % 128 = k.val - 128 := by have := k.isLt; omega
    rw [e]

/-! ## The row of means -/

/-- The staged row of means is the array of means with a leading unit axis. -/
private theorem wMu_eq (c : Dev nD) :
    (V m c main_v18 : S1x1024.Idx → EReal) = shapeCast S1x1024 (aMu m c) shapeCasts_S1024_S1x1024 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The row of means. -/
theorem wMu_apply (c : Dev nD) (j : Fin 1024) : wMu m c (ix2 (0 : Fin 1) j) = aMu m c (ix1 j) := by
  show (V m c main_v18 : S1x1024.Idx → EReal) (ix2 (0 : Fin 1) j) = _
  rw [wMu_eq]
  exact shapeCast_a_1a_apply _ _ _ _

/-! ## The row of reciprocal deviations -/

/-- The staged row of reciprocal deviations is 1/σ, elementwise, with a leading unit axis. -/
private theorem wInv_eq (c : Dev nD) :
    (V m c main_v21 : S1x1024.Idx → EReal)
      = shapeCast S1x1024
          (Host.divf (F := Ideal) (s := S1024) (φ := .f32)
            (broadcastInDim S1024 ![] bcast_S_S1024 (constant (F := Ideal) S_ .f32 0x3F800000#32)) (aSd m c))
          shapeCasts_S1024_S1x1024 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The row of reciprocal deviations. -/
theorem wInv_apply (c : Dev nD) (j : Fin 1024) : wInv m c (ix2 (0 : Fin 1) j) = Ideal.div cOne (aSd m c (ix1 j)) := by
  show (V m c main_v21 : S1x1024.Idx → EReal) (ix2 (0 : Fin 1) j) = _
  rw [wInv_eq]
  refine (shapeCast_a_1a_apply _ _ _ _).trans ?_
  refine (hostDivf_apply _ _ _).trans ?_
  rw [broadcastInDim_scalar_apply]
  rfl

/-! ## The row of additive constants -/

/-- The staged row of additive constants is -(log σ) - c, elementwise, with a leading unit axis. -/
private theorem wGc_eq (c : Dev nD) :
    (V m c main_v26 : S1x1024.Idx → EReal)
      = shapeCast S1x1024
          (subf (F := Ideal) (s := S1024) (φ := .f32)
            (Host.negf (F := Ideal) (s := S1024) (φ := .f32) (Host.log (F := Ideal) (s := S1024) (φ := .f32) (aSd m c)))
            (broadcastInDim S1024 ![] bcast_S_S1024 (constant (F := Ideal) S_ .f32 0x3F6B3F8E#32)))
          shapeCasts_S1024_S1x1024 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The row of additive constants. -/
theorem wGc_apply (c : Dev nD) (j : Fin 1024) : wGc m c (ix2 (0 : Fin 1) j) = -(Ideal.log (aSd m c (ix1 j))) - cLog := by
  show (V m c main_v26 : S1x1024.Idx → EReal) (ix2 (0 : Fin 1) j) = _
  rw [wGc_eq]
  refine (shapeCast_a_1a_apply _ _ _ _).trans ?_
  refine (subf_apply _ _ _).trans ?_
  rw [broadcastInDim_scalar_apply]
  rfl

end Cert.Leaves

end
-- ==== Proof.GlueTable.lean ====
/-
  The categorical table the kernel stages, [4096, 1024], read at an index: row k = class·128 + feature, leaf j holds
  logp[j, class] where the feature is leaf j's categorical scope minus 128, and 0 elsewhere. Its low part (the table
  minus the table's own change of format and back) is the table minus itself.

  The table is built in four layers, each read at an index below:
  * the offsets: each leaf's scope word minus 128, clamped into [0, 127] (on a word in [128, 256) the clamp is idle);
  * the one-hot [128, 1024]: 1 at (feature, leaf) exactly when the feature is the leaf's offset;
  * the cube [32, 128, 1024]: logp transposed, times the one-hot, each broadcast along the axis it lacks;
  * the table [4096, 1024]: the cube with class and feature merged row-major, row k = (k / 128, k % 128).
-/
import proofs.«424448_j26723286515898_3_alg».proof.Proof.Glue

noncomputable section

namespace Cert.Leaves

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

namespace Table

/-! ## The four layers as functions of logp and the scope words -/

/-- The clamped scope offsets: min 127 (max 0 (scope - 128)). -/
def tSc (cs : IVec S1024 32) : IVec S1024 32 :=
  minsi (broadcastInDim S1024 ![] bcast_S_S1024 (constantI S_ 32 127#32))
    (maxsi (broadcastInDim S1024 ![] bcast_S_S1024 (constantI S_ 32 0#32))
      (subi cs (broadcastInDim S1024 ![] bcast_S_S1024 (constantI S_ 32 128#32))))

/-- The one-hot of the offsets over the 128 features. -/
def tOh (cs : IVec S1024 32) : FVec Ideal S128x1024 .f32 :=
  uitofp (F := Ideal) .f32 (cmpi .eq
    (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 (broadcastInDim S1x1024 ![1] bcast_S1024_S1x1024_1 (tSc cs))))

/-- The cube class × feature × leaf. -/
def tCube (lp : FVec Ideal S1024x32 .f32) (cs : IVec S1024 32) : FVec Ideal S32x128x1024 .f32 :=
  mulf
    (broadcastInDim S32x128x1024 ![0, 1, 2] bcast_S32x1x1024_S32x128x1024_0_1_2
      (broadcastInDim S32x1x1024 ![0, 2] bcast_S32x1024_S32x1x1024_0_2 (transpose S32x1024 [1, 0] lp transposes_S1024x32_S32x1024_1_0)))
    (broadcastInDim S32x128x1024 ![0, 1, 2] bcast_S1x128x1024_S32x128x1024_0_1_2
      (broadcastInDim S1x128x1024 ![1, 2] bcast_S128x1024_S1x128x1024_1_2 (tOh cs)))

/-- The table: the cube with class and feature merged. -/
def tTab (lp : FVec Ideal S1024x32 .f32) (cs : IVec S1024 32) : FVec Ideal S4096x1024 .f32 :=
  shapeCast S4096x1024 (tCube lp cs) shapeCasts_S32x128x1024_S4096x1024

/-! ## Each layer read at an index -/

/-- The offsets at a leaf, as words. -/
theorem tSc_apply (cs : IVec S1024 32) (j : Fin 1024) :
    tSc cs (ix1 j) = IntOp.minsi 127#32 (IntOp.maxsi 0#32 (IntOp.subi (cs (ix1 j)) 128#32)) := rfl

/-- The one-hot at (feature, leaf). -/
theorem tOh_apply (cs : IVec S1024 32) (f : Fin 128) (j : Fin 1024) :
    tOh cs (ix2 f j) = (((IntOp.cmpi .eq (BitVec.ofNat 32 f.val) (tSc cs (ix1 j))).toNat : ℝ) : EReal) := by
  have h1 : broadcastInDim S128x1024 ![0, 1] bcast_S128x1_S128x1024_0_1 (broadcastInDim S128x1 ![0] bcast_S128_S128x1_0 (iotaInDim S128 32 0)) (ix2 f j)
      = BitVec.ofNat 32 f.val := by
    refine (broadcastInDim_apply _ bcast_S128x1_S128x1024_0_1 _ (ix2 f j) (ix2 f (0 : Fin 1)) (fun b => match b with
      | ⟨0, _⟩ => by show f.val = if (128 : Nat) = 1 then 0 else f.val; rw [if_neg (by decide)]
      | ⟨1, _⟩ => by show 0 = if (1 : Nat) = 1 then 0 else j.val; rw [if_pos rfl])).trans ?_
    refine (broadcastInDim_apply _ bcast_S128_S128x1_0 _ (ix2 f (0 : Fin 1)) (ix1 f) (fun b => match b with
      | ⟨0, _⟩ => by show f.val = if (128 : Nat) = 1 then 0 else f.val; rw [if_neg (by decide)])).trans ?_
    rfl
  have h2 : broadcastInDim S128x1024 ![0, 1] bcast_S1x1024_S128x1024_0_1 (broadcastInDim S1x1024 ![1] bcast_S1024_S1x1024_1 (tSc cs)) (ix2 f j)
      = tSc cs (ix1 j) := by
    refine (broadcastInDim_apply _ bcast_S1x1024_S128x1024_0_1 _ (ix2 f j) (ix2 (0 : Fin 1) j) (fun b => match b with
      | ⟨0, _⟩ => by show 0 = if (1 : Nat) = 1 then 0 else f.val; rw [if_pos rfl]
      | ⟨1, _⟩ => by show j.val = if (1024 : Nat) = 1 then 0 else j.val; rw [if_neg (by decide)])).trans ?_
    exact broadcastInDim_apply _ bcast_S1024_S1x1024_1 _ (ix2 (0 : Fin 1) j) (ix1 j) (fun b => match b with
      | ⟨0, _⟩ => by show j.val = if (1024 : Nat) = 1 then 0 else j.val; rw [if_neg (by decide)])
  unfold tOh
  show (((IntOp.cmpi .eq (broadcastInDim S128x1024 ![0, 1] bcast_S128x1_S128x1024_0_1 (broadcastInDim S128x1 ![0] bcast_S128_S128x1_0 (iotaInDim S128 32 0)) (ix2 f j))
      (broadcastInDim S128x1024 ![0, 1] bcast_S1x1024_S128x1024_0_1 (broadcastInDim S1x1024 ![1] bcast_S1024_S1x1024_1 (tSc cs)) (ix2 f j))).toNat : ℝ) : EReal) = _
  rw [h1, h2]

/-- The cube at (class, feature, leaf). -/
theorem tCube_apply (lp : FVec Ideal S1024x32 .f32) (cs : IVec S1024 32) (a : Fin 32) (f : Fin 128) (j : Fin 1024) :
    tCube lp cs (ix3 a f j) = lp (ix2 j a) * tOh cs (ix2 f j) := by
  have h1 : broadcastInDim S32x128x1024 ![0, 1, 2] bcast_S32x1x1024_S32x128x1024_0_1_2
      (broadcastInDim S32x1x1024 ![0, 2] bcast_S32x1024_S32x1x1024_0_2 (transpose S32x1024 [1, 0] lp transposes_S1024x32_S32x1024_1_0)) (ix3 a f j)
      = lp (ix2 j a) := by
    refine (broadcastInDim_apply _ bcast_S32x1x1024_S32x128x1024_0_1_2 _ (ix3 a f j) (ix3 a (0 : Fin 1) j) (fun b => match b with
      | ⟨0, _⟩ => by show a.val = if (32 : Nat) = 1 then 0 else a.val; rw [if_neg (by decide)]
      | ⟨1, _⟩ => by show 0 = if (1 : Nat) = 1 then 0 else f.val; rw [if_pos rfl]
      | ⟨2, _⟩ => by show j.val = if (1024 : Nat) = 1 then 0 else j.val; rw [if_neg (by decide)])).trans ?_
    refine (broadcastInDim_apply _ bcast_S32x1024_S32x1x1024_0_2 _ (ix3 a (0 : Fin 1) j) (ix2 a j) (fun b => match b with
      | ⟨0, _⟩ => by show a.val = if (32 : Nat) = 1 then 0 else a.val; rw [if_neg (by decide)]
      | ⟨1, _⟩ => by show j.val = if (1024 : Nat) = 1 then 0 else j.val; rw [if_neg (by decide)])).trans ?_
    exact transpose_apply [1, 0] lp transposes_S1024x32_S32x1024_1_0 (ix2 a j) (ix2 j a) (fun b => match b with
      | ⟨0, _⟩ => rfl
      | ⟨1, _⟩ => rfl)
  have h2 : broadcastInDim S32x128x1024 ![0, 1, 2] bcast_S1x128x1024_S32x128x1024_0_1_2
      (broadcastInDim S1x128x1024 ![1, 2] bcast_S128x1024_S1x128x1024_1_2 (tOh cs)) (ix3 a f j) = tOh cs (ix2 f j) := by
    refine (broadcastInDim_apply _ bcast_S1x128x1024_S32x128x1024_0_1_2 _ (ix3 a f j) (ix3 (0 : Fin 1) f j) (fun b => match b with
      | ⟨0, _⟩ => by show 0 = if (1 : Nat) = 1 then 0 else a.val; rw [if_pos rfl]
      | ⟨1, _⟩ => by show f.val = if (128 : Nat) = 1 then 0 else f.val; rw [if_neg (by decide)]
      | ⟨2, _⟩ => by show j.val = if (1024 : Nat) = 1 then 0 else j.val; rw [if_neg (by decide)])).trans ?_
    exact broadcastInDim_apply _ bcast_S128x1024_S1x128x1024_1_2 _ (ix3 (0 : Fin 1) f j) (ix2 f j) (fun b => match b with
      | ⟨0, _⟩ => by show f.val = if (128 : Nat) = 1 then 0 else f.val; rw [if_neg (by decide)]
      | ⟨1, _⟩ => by show j.val = if (1024 : Nat) = 1 then 0 else j.val; rw [if_neg (by decide)])
  unfold tCube
  rw [mulf_apply, h1, h2]

/-- The table at (row, leaf): the cube at (row / 128, row % 128, leaf). -/
theorem tTab_apply (lp : FVec Ideal S1024x32 .f32) (cs : IVec S1024 32) (k : Fin 4096) (j : Fin 1024) :
    tTab lp cs (ix2 k j) = tCube lp cs (ix3 (⟨k.val / 128, by omega⟩ : Fin 32) (⟨k.val % 128, Nat.mod_lt _ (by decide)⟩ : Fin 128) j) := by
  unfold tTab
  refine shapeCast_apply _ _ _ _ ?_
  rw [Shape.rowMajor_val_three, Shape.rowMajor_val_two]
  show ((k.val / 128) * 128 + k.val % 128) * 1024 + j.val = k.val * 1024 + j.val
  have := Nat.div_add_mod k.val 128
  omega

/-- On a scope word in [128, 256) the clamp of (word - 128) into [0, 127] is (word - 128). -/
theorem clamp_word (w : BitVec 32) (h1 : 128 ≤ w.toNat) (h2 : w.toNat < 256) :
    IntOp.minsi 127#32 (IntOp.maxsi 0#32 (IntOp.subi w 128#32)) = w - 128#32 := by
  have hd : (w - 128#32).toNat = w.toNat - 128 := by
    rw [BitVec.toNat_sub]
    show (2 ^ 32 - 128 + w.toNat) % 2 ^ 32 = _
    omega
  have hi : (w - 128#32).toInt = ((w.toNat - 128 : Nat) : Int) := by
    rw [BitVec.toInt_eq_toNat_of_lt (by rw [hd]; omega), hd]
  have s1 : (w - 128#32).slt 0#32 = false := by
    rw [BitVec.slt_eq_decide, hi]
    show decide (((w.toNat - 128 : Nat) : Int) < 0) = false
    exact decide_eq_false (by omega)
  have s2 : (127#32).slt (w - 128#32) = false := by
    rw [BitVec.slt_eq_decide, hi]
    show decide ((127 : Int) < ((w.toNat - 128 : Nat) : Int)) = false
    exact decide_eq_false (by omega)
  unfold IntOp.minsi IntOp.maxsi IntOp.subi
  rw [s1]
  simp only [Bool.false_eq_true, if_false]
  rw [s2]
  simp only [Bool.false_eq_true, if_false]

/-- The one-hot bit as a number: feature f matches the word exactly when f + 128 is the word. -/
theorem onehot_word (w : BitVec 32) (h1 : 128 ≤ w.toNat) (h2 : w.toNat < 256) (f : Nat) (hf : f < 128) :
    (((IntOp.cmpi .eq (BitVec.ofNat 32 f) (w - 128#32)).toNat : ℝ) : EReal) = if f + 128 = w.toNat then (1 : EReal) else 0 := by
  have hd : (w - 128#32).toNat = w.toNat - 128 := by
    rw [BitVec.toNat_sub]
    show (2 ^ 32 - 128 + w.toNat) % 2 ^ 32 = _
    omega
  have hiff : (BitVec.ofNat 32 f = w - 128#32) ↔ f + 128 = w.toNat := by
    rw [BitVec.toNat_eq, BitVec.toNat_ofNat, hd]
    omega
  unfold IntOp.cmpi
  show (((BitVec.ofBool (BitVec.ofNat 32 f == w - 128#32)).toNat : ℝ) : EReal) = _
  rw [BitVec.toNat_ofBool]
  by_cases h : f + 128 = w.toNat
  · rw [if_pos h, beq_iff_eq.mpr (hiff.mpr h)]
    show (((1 : Nat) : ℝ) : EReal) = 1
    norm_num
  · rw [if_neg h, beq_eq_false_iff_ne.mpr (fun e => h (hiff.mp e))]
    show (((0 : Nat) : ℝ) : EReal) = 0
    norm_num

/-! ## The table as the region finds it -/

/-- The staged table is the composed table (a change of format is the identity on extended reals). -/
theorem e34 (c : Dev nD) : (V m c main_v34 : S4096x1024.Idx → EReal)
    = truncf .bf16 (tTab (aLp m c) (aCs m c)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The staged low part: the table minus the table's change of format and back. -/
theorem e37 (c : Dev nD) : (V m c main_v37 : S4096x1024.Idx → EReal)
    = truncf .bf16 (subf (tTab (aLp m c) (aCs m c))
        (extf .f32 (truncf .bf16 (tTab (aLp m c) (aCs m c)) bitsLt_bf16_f32) bitsLt_bf16_f32)) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

end Table

/-- The categorical table: logp[j, class] on the row of leaf j's feature, 0 elsewhere. -/
theorem wMhi_apply (c : Dev nD) (hc1 : ∀ j : Fin 1024, 128 ≤ (aCs m c (ix1 j)).toNat)
    (hc2 : ∀ j : Fin 1024, (aCs m c (ix1 j)).toNat < 256) (k : Fin 4096) (j : Fin 1024) :
    wMhi m c (ix2 k j) = aLp m c (ix2 j (⟨k.val / 128, by omega⟩ : Fin 32))
      * (if k.val % 128 + 128 = (aCs m c (ix1 j)).toNat then (1 : EReal) else 0) := by
  refine (congrFun (Table.e34 m c) (ix2 k j)).trans ?_
  rw [truncf_apply, Table.tTab_apply, Table.tCube_apply, Table.tOh_apply, Table.tSc_apply,
    Table.clamp_word _ (hc1 j) (hc2 j), Table.onehot_word _ (hc1 j) (hc2 j) _ (Nat.mod_lt _ (by decide))]

/-- The table's low part is the table minus itself. -/
theorem wMlo_apply (c : Dev nD) (k : Fin 4096) (j : Fin 1024) :
    wMlo m c (ix2 k j) = wMhi m c (ix2 k j) - wMhi m c (ix2 k j) := by
  have h34 : wMhi m c (ix2 k j) = Table.tTab (aLp m c) (aCs m c) (ix2 k j) := congrFun (Table.e34 m c) (ix2 k j)
  have h37 : wMlo m c (ix2 k j)
      = Table.tTab (aLp m c) (aCs m c) (ix2 k j) - Table.tTab (aLp m c) (aCs m c) (ix2 k j) :=
    congrFun (Table.e37 m c) (ix2 k j)
  rw [h37, h34]

end Cert.Leaves

end
-- ==== Proof.PayGauss.lean ====
/-
  The Gaussian payload at an index. The body multiplies the block of x, split as [x | x - x] along the feature axis,
  into the stacked one-hot: for finite x the second half vanishes and the one-hot column selects one feature, so entry
  (p, q) is -1/2 · ((x[p, g_q] - μ_q) · inv_q)² + const_q.
-/
import proofs.«424448_j26723286515898_3_alg».proof.Proof.Gen.KernelIdeal.Skeleton
import proofs.«424448_j26723286515898_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Leaves

open Cert.KernelIdeal Cert.KernelIdeal.Gen Idealize.ShloMosaic Idealize.ShloMosaic.ValueIdx

/-! ## The product's operand indices, axis by axis

The product contracts axis 1 of the [256,256] left operand with axis 0 of the [256,1024] right operand: at result index j
and contraction position k the left operand is read at (j 0, k) and the right operand at (k, j 1). -/

theorem gaussDot_lhs_0 (j : S256x1024.Idx) (k : dot_S256x256_S256x1024_S256x1024_1_0_0_1_n_n.contr.Idx) :
    (dot_S256x256_S256x1024_S256x1024_1_0_0_1_n_n.lhsIdx j k 0 : ℕ) = j 0 := by
  simp only [Fin.isValue, Matrix.cons_val_zero, DotDims.lhsIdx, dot_S256x256_S256x1024_S256x1024_1_0_0_1_n_n,
    List.not_mem_nil, ↓reduceDIte, List.mem_cons, or_false, List.length_nil]; rfl
theorem gaussDot_lhs_1 (j : S256x1024.Idx) (k : dot_S256x256_S256x1024_S256x1024_1_0_0_1_n_n.contr.Idx) :
    (dot_S256x256_S256x1024_S256x1024_1_0_0_1_n_n.lhsIdx j k 1 : ℕ) = k ⟨0, by decide⟩ := by
  simp only [Fin.isValue, Matrix.cons_val_one, Matrix.cons_val_zero, DotDims.lhsIdx,
    dot_S256x256_S256x1024_S256x1024_1_0_0_1_n_n, List.not_mem_nil, ↓reduceDIte, List.mem_cons, one_ne_zero, or_self]; rfl
theorem gaussDot_rhs_0 (j : S256x1024.Idx) (k : dot_S256x256_S256x1024_S256x1024_1_0_0_1_n_n.contr.Idx) :
    (dot_S256x256_S256x1024_S256x1024_1_0_0_1_n_n.rhsIdx j k 0 : ℕ) = k ⟨0, by decide⟩ := by
  simp only [Fin.isValue, Matrix.cons_val_zero, DotDims.rhsIdx, dot_S256x256_S256x1024_S256x1024_1_0_0_1_n_n,
    List.not_mem_nil, ↓reduceDIte, List.mem_cons, zero_ne_one, or_self]; rfl
theorem gaussDot_rhs_1 (j : S256x1024.Idx) (k : dot_S256x256_S256x1024_S256x1024_1_0_0_1_n_n.contr.Idx) :
    (dot_S256x256_S256x1024_S256x1024_1_0_0_1_n_n.rhsIdx j k 1 : ℕ) = j 1 := by
  simp only [Fin.isValue, Matrix.cons_val_one, Matrix.cons_val_zero, DotDims.rhsIdx,
    dot_S256x256_S256x1024_S256x1024_1_0_0_1_n_n, List.not_mem_nil, ↓reduceDIte, List.mem_cons, or_false,
    List.length_nil, List.length_cons, Nat.reduceAdd]; rfl

/-- The product into the zero block, at (p, q): the sum over the 256 contracted positions. -/
theorem gaussDot_apply (A : FVec Ideal S256x256 .bf16) (B : FVec Ideal S256x1024 .bf16) (p : Fin 256) (q : Fin 1024) :
    matmul dot_S256x256_S256x1024_S256x1024_1_0_0_1_n_n none A B (constant S256x1024 .f32 0x00000000#32) (ix2 p q)
      = ∑ k : Fin 256, A (ix2 p k) * B (ix2 k q) := by
  show FloatOps.matmul _ none A B _ (ix2 p q) = _
  rw [Ideal.matmul_constant_zero_apply,
    ← Equiv.sum_comp (contrEquiv1 dot_S256x256_S256x1024_S256x1024_1_0_0_1_n_n 256 rfl rfl).symm]
  refine Finset.sum_congr rfl fun c _ => ?_
  have c2 := contrEquiv1_symm_val dot_S256x256_S256x1024_S256x1024_1_0_0_1_n_n 256 rfl rfl c
  have l2 : dot_S256x256_S256x1024_S256x1024_1_0_0_1_n_n.lhsIdx (ix2 p q)
      ((contrEquiv1 dot_S256x256_S256x1024_S256x1024_1_0_0_1_n_n 256 rfl rfl).symm c) = ix2 p c := by
    funext ax; apply Fin.ext
    match ax with
    | ⟨0, _⟩ => exact gaussDot_lhs_0 _ _
    | ⟨1, _⟩ => exact (gaussDot_lhs_1 _ _).trans c2
  have r2 : dot_S256x256_S256x1024_S256x1024_1_0_0_1_n_n.rhsIdx (ix2 p q)
      ((contrEquiv1 dot_S256x256_S256x1024_S256x1024_1_0_0_1_n_n 256 rfl rfl).symm c) = ix2 c q := by
    funext ax; apply Fin.ext
    match ax with
    | ⟨0, _⟩ => exact (gaussDot_rhs_0 _ _).trans c2
    | ⟨1, _⟩ => exact gaussDot_rhs_1 _ _
  rw [l2, r2]

/-- The left operand of the product: the block's first 128 columns beside their difference with themselves. -/
def gaussLhs (v0 : Vec Ideal S256x256 .f32) : FVec Ideal S256x256 .bf16 :=
  concatenate S256x256 1
    [⟨S256x128, truncf .bf16 (extractStridedSlice S256x128 ![0, 0] v0 slices_S256x256_o0_0_S256x128) bitsLt_bf16_f32⟩,
     ⟨S256x128, truncf .bf16 (subf (extractStridedSlice S256x128 ![0, 0] v0 slices_S256x256_o0_0_S256x128)
        (extractStridedSlice S256x128 ![0, 0] v0 slices_S256x256_o0_0_S256x128)) bitsLt_bf16_f32⟩]
    concatenates_S256x128_S256x128_S256x256_d1

/-- Its first half is the block's first half. -/
theorem gaussLhs_lo (v0 : Vec Ideal S256x256 .f32) (p k : Fin 256) (hk : k.val < 128) : gaussLhs v0 (ix2 p k) = v0 (ix2 p k) := by
  unfold gaussLhs
  refine (concatenate_pair_apply_left (t := S256x256) (s₁ := S256x128) (s₂ := S256x128) 1 _ _
    concatenates_S256x128_S256x128_S256x256_d1 (ix2 p k) rfl (ix2 p (⟨k.val, hk⟩ : Fin 128))
    (fun b => by match b with | ⟨0, _⟩ => rfl | ⟨1, _⟩ => rfl)).trans ?_
  show extractStridedSlice S256x128 ![0, 0] v0 slices_S256x256_o0_0_S256x128 (ix2 p (⟨k.val, hk⟩ : Fin 128)) = _
  exact slice2_axis1_apply 0 v0 _ p ⟨k.val, hk⟩ k (Nat.zero_add _).symm

/-- Its second half vanishes on a finite block. -/
theorem gaussLhs_hi (v0 : Vec Ideal S256x256 .f32) (hfin : ∀ i, ∃ r : ℝ, v0 i = (r : EReal)) (p k : Fin 256) (hk : 128 ≤ k.val) :
    gaussLhs v0 (ix2 p k) = 0 := by
  have hk' : k.val - 128 < 128 := by have := k.isLt; omega
  have hk'' : k.val - 128 < 256 := by omega
  unfold gaussLhs
  refine (concatenate_pair_apply_right (t := S256x256) (s₁ := S256x128) (s₂ := S256x128) 1 _ _
    concatenates_S256x128_S256x128_S256x256_d1 (ix2 p k) rfl rfl (ix2 p (⟨k.val - 128, hk'⟩ : Fin 128))
    (fun b hb => by
      match b, hb with
      | ⟨0, _⟩, _ => rfl
      | ⟨1, _⟩, hb => exact absurd rfl hb)
    (by show (k.val - 128) + 128 = k.val; omega)).trans ?_
  show extractStridedSlice S256x128 ![0, 0] v0 slices_S256x256_o0_0_S256x128 (ix2 p (⟨k.val - 128, hk'⟩ : Fin 128))
    - extractStridedSlice S256x128 ![0, 0] v0 slices_S256x256_o0_0_S256x128 (ix2 p (⟨k.val - 128, hk'⟩ : Fin 128)) = 0
  rw [slice2_axis1_apply 0 v0 _ p ⟨k.val - 128, hk'⟩ ⟨k.val - 128, hk''⟩ (Nat.zero_add _).symm]
  obtain ⟨r, hr⟩ := hfin (ix2 p (⟨k.val - 128, hk''⟩ : Fin 256))
  rw [hr, ← EReal.coe_sub, sub_self, EReal.coe_zero]

/-- A sum over 256 positions of a function vanishing on the second half, against the indicator of "position mod 128 is g",
    selects position g. -/
theorem sum_onehot_mod128 (f w : Fin 256 → EReal) (hf : ∀ k : Fin 256, 128 ≤ k.val → f k = 0) (g : Fin 128)
    (hw : ∀ k : Fin 256, w k = if k.val % 128 = g.val then (1 : EReal) else 0) :
    (∑ k : Fin 256, f k * w k) = f (⟨g.val, by omega⟩ : Fin 256) := by
  rw [Finset.sum_eq_single (⟨g.val, by omega⟩ : Fin 256)]
  · rw [hw, if_pos (Nat.mod_eq_of_lt g.isLt), mul_one]
  · intro b _ hb
    rw [hw b]
    by_cases h : b.val % 128 = g.val
    · have h128 : 128 ≤ b.val := by
        by_contra hlt
        exact hb (Fin.ext (by show b.val = g.val; omega))
      rw [hf b h128, zero_mul]
    · rw [if_neg h, mul_zero]
  · intro h; exact absurd (Finset.mem_univ _) h

/-- The Gaussian payload at (p, q), for a finite block of x and a one-hot right operand whose column q selects feature g q. -/
theorem pay2_apply (v0 : Vec Ideal S256x256 .f32) (v8 : Vec Ideal S256x1024 .bf16) (v11 v13 v15 : Vec Ideal S1x1024 .f32)
    (hfin : ∀ i, ∃ r : ℝ, v0 i = (r : EReal))
    (g : Fin 1024 → Fin 128)
    (hv8 : ∀ (k : Fin 256) (q : Fin 1024), v8 (ix2 k q) = if k.val % 128 = (g q).val then (1 : EReal) else 0)
    (p : Fin 256) (q : Fin 1024) :
    k0_pay2 (F := Ideal) v0 v8 v11 v13 v15 (ix2 p q)
      = cHalf * (((v0 (ix2 p (⟨(g q).val, by omega⟩ : Fin 256)) - v11 (ix2 (0 : Fin 1) q)) * v13 (ix2 (0 : Fin 1) q))
          * ((v0 (ix2 p (⟨(g q).val, by omega⟩ : Fin 256)) - v11 (ix2 (0 : Fin 1) q)) * v13 (ix2 (0 : Fin 1) q)))
        + v15 (ix2 (0 : Fin 1) q) := by
  have hM : matmul (φ₂ := FTy.bf16) dot_S256x256_S256x1024_S256x1024_1_0_0_1_n_n none (gaussLhs v0) v8
          (constant S256x1024 .f32 0x00000000#32) (ix2 p q)
      = v0 (ix2 p (⟨(g q).val, by omega⟩ : Fin 256)) := by
    rw [gaussDot_apply]
    refine (sum_onehot_mod128 (fun k => gaussLhs v0 (ix2 p k)) (fun k => v8 (ix2 k q))
      (fun k hk => gaussLhs_hi v0 hfin p k hk) (g q) (fun k => hv8 k q)).trans ?_
    exact gaussLhs_lo v0 p _ (g q).isLt
  have h11 := broadcastTo_1b_ab_apply v11 broadcasts_S1x1024_S256x1024 p q
  have h13 := broadcastTo_1b_ab_apply v13 broadcasts_S1x1024_S256x1024 p q
  have h15 := broadcastTo_1b_ab_apply v15 broadcasts_S1x1024_S256x1024 p q
  unfold k0_pay2
  simp only [shapeCast_self]
  show cHalf * (((matmul (φ₂ := FTy.bf16) dot_S256x256_S256x1024_S256x1024_1_0_0_1_n_n none (gaussLhs v0) v8
          (constant S256x1024 .f32 0x00000000#32) (ix2 p q)
        - broadcastTo S256x1024 v11 broadcasts_S1x1024_S256x1024 (ix2 p q))
        * broadcastTo S256x1024 v13 broadcasts_S1x1024_S256x1024 (ix2 p q))
      * ((matmul (φ₂ := FTy.bf16) dot_S256x256_S256x1024_S256x1024_1_0_0_1_n_n none (gaussLhs v0) v8
          (constant S256x1024 .f32 0x00000000#32) (ix2 p q)
        - broadcastTo S256x1024 v11 broadcasts_S1x1024_S256x1024 (ix2 p q))
        * broadcastTo S256x1024 v13 broadcasts_S1x1024_S256x1024 (ix2 p q)))
      + broadcastTo S256x1024 v15 broadcasts_S1x1024_S256x1024 (ix2 p q) = _
  rw [hM, h11, h13, h15]

end Cert.Leaves

end
-- ==== Proof.PayCat.lean ====
/-
  The categorical payload at an index. The body compares the block's categorical features, read as integers and tiled
  32 times along the lanes, with lane / 128 (the class of the lane), and multiplies that 0/1 mask into the table and
  into its low part. For a table that holds L[q, class] on the rows of one feature f_q and 0 elsewhere, and classes
  in [0,32), the mask's row selects exactly the lane class·128 + f_q, so entry (p, q) is L[q, class of x[p, 128 + f_q]];
  the low part (the table minus itself) adds zero.
-/
import proofs.«424448_j26723286515898_3_alg».proof.Proof.Gen.KernelIdeal.Skeleton
import proofs.«424448_j26723286515898_3_alg».proof.Proof.Spec
import Idealize.ShloMosaic.PureOps.Ideal.Laws
import Idealize.ShloMosaic.Lib.Affine
import Idealize.ShloMosaic.Lib.WordArith
import Idealize.ShloMosaic.Lib.ValueIdx
import Idealize.ShloMosaic.Lib.ValueLayout
import Idealize.ShloMosaic.Lib.Pipeline.Value

noncomputable section

namespace Cert.Leaves

open Cert.KernelIdeal Cert.KernelIdeal.Gen Idealize.ShloMosaic Idealize.ShloMosaic.ValueIdx
namespace PayCat

/-! ## The lane's class: floor division by 128, spelt the signed way -/

/-- The quotient toward zero, less one when the signs of dividend and divisor differ and the remainder is not zero. -/
def floorWord (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32)
    (IntOp.divsi .vector x 128#32)

/-- Below 4096 the signed quotient by 128 is the quotient of the numbers. -/
theorem divsi_128 (k : Nat) (hk : k < 4096) :
    IntOp.divsi .vector (BitVec.ofNat 32 k) 128#32 = BitVec.ofNat 32 (k / 128) := by
  have hcorner : ¬ IntOp.SDivCorner (BitVec.ofNat 32 k) 128#32 := IntOp.not_corner_of_pos (by decide)
  have hm : (BitVec.ofNat 32 k).msb = false :=
    BitVec.msb_eq_false_iff_two_mul_lt.mpr (by rw [BitVec.toNat_ofNat]; omega)
  have hkN : (BitVec.ofNat 32 k).toNat = k := by rw [BitVec.toNat_ofNat]; omega
  have h128 : (128#32 : BitVec 32).toNat = 128 := rfl
  apply BitVec.eq_of_toNat_eq
  simp only [IntOp.divsi, if_neg hcorner, BitVec.sdiv_eq, hm, show (128#32 : BitVec 32).msb = false from rfl,
    BitVec.udiv_eq, BitVec.toNat_udiv]
  rw [hkN, h128, BitVec.toNat_ofNat]
  omega

/-- Below 4096 the signs agree or the number is 0 (and then so is the remainder): nothing is taken off the quotient. -/
theorem floorWord_ofNat (k : Nat) (hk : k < 4096) : floorWord (BitVec.ofNat 32 k) = BitVec.ofNat 32 (k / 128) := by
  unfold floorWord
  have h42 : Scalar.subi (Scalar.extui (Scalar.cmpi .sgt 128#32 0#32)) (Scalar.extui (Scalar.cmpi .slt 128#32 0#32)) = 1#32 := rfl
  rw [h42, divsi_128 k hk]
  by_cases h0 : k = 0
  · subst h0
    have hr : IntOp.remsi .vector (BitVec.ofNat 32 0) 128#32 = 0#32 :=
      (IntOp.remsi_eq_zero_iff .vector (by rw [BitVec.toNat_ofNat]; omega) 128 (by omega) (by omega)).mpr ⟨0, rfl⟩
    rw [hr]
    have e1 : IntOp.cmpi .ne (0#32) 0#32 = 0#1 := rfl
    have e2 : ∀ c : BitVec 1, IntOp.andi c 0#1 = 0#1 := fun c => BitVec.and_zero
    rw [e1, e2, select_zero]
  · have z : (0#32 : BitVec 32).toInt = 0 := rfl
    have hx : (BitVec.ofNat 32 k).toInt = (k : Int) := WordArith.toInt_ofNat_small k (by omega)
    have h1 : IntOp.cmpi .sgt (BitVec.ofNat 32 k) 0#32 = 1#1 := IntOp.cmpi_sgt.mpr (by rw [hx, z]; omega)
    have h2 : IntOp.cmpi .slt (BitVec.ofNat 32 k) 0#32 = 0#1 :=
      eq_zero_of_ne_one (fun h => by have := IntOp.cmpi_slt.mp h; rw [hx, z] at this; omega)
    rw [h1, h2]
    have e1 : IntOp.cmpi .ne (IntOp.subi ((1#1 : BitVec 1).setWidth 32) ((0#1 : BitVec 1).setWidth 32)) 1#32 = 0#1 := rfl
    have e2 : ∀ c : BitVec 1, IntOp.andi 0#1 c = 0#1 := fun c => BitVec.zero_and
    rw [e1, e2, select_zero]

/-! ## A one-bit word widened and read as a float -/

theorem bit_to_ereal (c : BitVec 1) : (((c.setWidth 32).toInt : ℝ) : EReal) = if c = 1#1 then (1 : EReal) else 0 := by
  by_cases h : c = 1#1
  · subst h
    have : ((1#1 : BitVec 1).setWidth 32).toInt = 1 := rfl
    rw [this, if_pos rfl]; simp only [Int.cast_one, EReal.coe_one]
  · have h0 : c = 0#1 := eq_zero_of_ne_one h
    subst h0
    have : ((0#1 : BitVec 1).setWidth 32).toInt = 0 := rfl
    rw [this, if_neg h]; simp only [Int.cast_zero, EReal.coe_zero]

/-! ## The two sums -/

/-- The mask's row against a table that holds `Lq class` on the rows of feature `f0` and 0 elsewhere: the one lane
    `class · 128 + f0` survives (0 annihilates on the extended reals, so no finiteness is asked). -/
theorem sel_sum (W : Fin 128 → BitVec 32) (hW : ∀ f, (W f).toNat < 32) (Lq : Fin 32 → ℝ) (f0 : Fin 128) :
    (∑ k : Fin 4096,
        (if W (⟨k.val % 128, Nat.mod_lt _ (by decide)⟩ : Fin 128) = BitVec.ofNat 32 (k.val / 128) then (1 : EReal) else 0)
          * (((Lq (⟨k.val / 128, by omega⟩ : Fin 32) : ℝ) : EReal) * (if k.val % 128 = f0.val then (1 : EReal) else 0)))
      = ((Lq (⟨(W f0).toNat % 32, Nat.mod_lt _ (by decide)⟩ : Fin 32) : ℝ) : EReal) := by
  have hc := hW f0
  have hf := f0.isLt
  rw [Finset.sum_eq_single (⟨(W f0).toNat * 128 + f0.val, by omega⟩ : Fin 4096)]
  · have e1 : ((W f0).toNat * 128 + f0.val) % 128 = f0.val := by omega
    have e2 : ((W f0).toNat * 128 + f0.val) / 128 = (W f0).toNat := by omega
    have ef : (⟨((W f0).toNat * 128 + f0.val) % 128, Nat.mod_lt _ (by decide)⟩ : Fin 128) = f0 := Fin.ext e1
    have ew : W f0 = BitVec.ofNat 32 (((W f0).toNat * 128 + f0.val) / 128) := by
      apply BitVec.eq_of_toNat_eq
      rw [BitVec.toNat_ofNat, e2]; omega
    simp only [ef]
    rw [if_pos ew, if_pos e1, one_mul, mul_one]
    congr 2
    exact Fin.ext (by show _ / 128 = _ % 32; omega)
  · intro k _ hne
    by_cases hk : k.val % 128 = f0.val
    · have hq : k.val / 128 ≠ (W f0).toNat :=
        fun h => hne (Fin.ext (by show k.val = (W f0).toNat * 128 + f0.val; omega))
      have ef : (⟨k.val % 128, Nat.mod_lt _ (by decide)⟩ : Fin 128) = f0 := Fin.ext hk
      have hw : ¬ W (⟨k.val % 128, Nat.mod_lt _ (by decide)⟩ : Fin 128) = BitVec.ofNat 32 (k.val / 128) := by
        rw [ef]; intro h
        have := congrArg BitVec.toNat h
        rw [BitVec.toNat_ofNat] at this
        have := k.isLt
        omega
      rw [if_neg hw, zero_mul]
    · rw [if_neg hk, mul_zero, mul_zero]
  · intro h; exact absurd (Finset.mem_univ _) h

/-- A row against a finite table minus itself is zero. -/
theorem low_sum (m : Fin 4096 → EReal) (t : Fin 4096 → EReal) (ht : ∀ k, ∃ r : ℝ, t k = (r : EReal)) :
    (∑ k : Fin 4096, m k * (t k - t k)) = 0 := by
  apply Finset.sum_eq_zero
  intro k _
  obtain ⟨r, hr⟩ := ht k
  rw [hr, ← EReal.coe_sub, sub_self, EReal.coe_zero, mul_zero]

/-- A real times a 0/1 factor is a real. -/
theorem coe_mul_ind (a : ℝ) (c : Prop) [Decidable c] :
    ∃ r : ℝ, (a : EReal) * (if c then (1 : EReal) else 0) = (r : EReal) := by
  by_cases h : c
  · exact ⟨a, by rw [if_pos h, mul_one]⟩
  · exact ⟨0, by rw [if_neg h, mul_zero, EReal.coe_zero]⟩

/-! ## The mask at an index -/

/-- The block's categorical features read as integers, tiled 32 times along the lanes: lane k holds feature k mod 128. -/
theorem pay3_apply (v0 : Vec Ideal S256x256 .f32) (p : Fin 256) (k : Fin 4096) :
    k0_pay3 (F := Ideal) v0 (ix2 p k)
      = Ideal.fptosi 32 (v0 (ix2 p (⟨128 + k.val % 128, by omega⟩ : Fin 256))) := by
  have e : k0_pay3 (F := Ideal) v0
      = concatenate S256x4096 1 (List.replicate 32 (⟨S256x128,
          (fptosi (F := Ideal) (φ := .f32) 32 (extractStridedSlice (s := S256x256) S256x128 ![0, 128] v0 slices_S256x256_o0_128_S256x128) : IVec S256x128 32)⟩ : (s : Shape) × (s.Idx → BitVec 32)))
          concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 := rfl
  rw [e]
  refine (concatenate_replicate_apply (t := S256x4096) (s₁ := S256x128) 1 32 _ _ rfl (ix2 p k)
    (ix2 p (⟨k.val % 128, Nat.mod_lt _ (by decide)⟩ : Fin 128)) rfl
    (fun b => match b with
      | ⟨0, _⟩ => fun _ => rfl
      | ⟨1, _⟩ => fun h => absurd rfl h)).trans ?_
  show Ideal.fptosi 32 (extractStridedSlice (s := S256x256) S256x128 ![0, 128] v0 slices_S256x256_o0_128_S256x128
    (ix2 p (⟨k.val % 128, Nat.mod_lt _ (by decide)⟩ : Fin 128))) = _
  refine congrArg (Ideal.fptosi 32) ?_
  exact extractStridedSlice_apply (s := S256x256) (t := S256x128) ![0, 128] v0 slices_S256x256_o0_128_S256x128 _ _
    (fun a => match a with
      | ⟨0, _⟩ => by show p.val = 0 + p.val; omega
      | ⟨1, _⟩ => by show 128 + k.val % 128 = 128 + k.val % 128; rfl)

/-- The lane number along axis 1. -/
theorem lane_apply (p : Fin 256) (k : Fin 4096) :
    iota .tc S256x4096 32 [1] iota_S256x4096_d1_w32 (ix2 p k) = BitVec.ofNat 32 k.val :=
  iota_single_apply .tc S256x4096 32 1 iota_S256x4096_d1_w32 (ix2 p k)

/-- The lane's class as the body spells it: lane / 128 rounded down, from the quotient toward zero, the signs and the
    remainder. -/
def clsV : IVec S256x4096 32 :=
  select
    (andi
      (cmpi .ne k0_pay5 (broadcast S256x4096 (Scalar.subi (Scalar.extui (Scalar.cmpi .sgt 128#32 0#32)) (Scalar.extui (Scalar.cmpi .slt 128#32 0#32)))))
      (cmpi .ne (remsi (iota .tc S256x4096 32 [1] iota_S256x4096_d1_w32) (broadcast S256x4096 128#32)) (broadcast S256x4096 0#32)))
    (subi k0_pay4 (broadcast S256x4096 1#32)) k0_pay4

theorem clsV_apply (p : Fin 256) (k : Fin 4096) : clsV (ix2 p k) = BitVec.ofNat 32 (k.val / 128) := by
  show floorWord (iota .tc S256x4096 32 [1] iota_S256x4096_d1_w32 (ix2 p k)) = _
  rw [lane_apply]
  exact floorWord_ofNat k.val k.isLt

/-- The 0/1 mask: lane k of row p is 1 exactly when feature k mod 128 of row p holds class k / 128. -/
def maskV (v0 : Vec Ideal S256x256 .f32) : FVec Ideal S256x4096 .bf16 :=
  truncf .bf16 (sitofp .f32 (extui 32 (cmpi .eq (k0_pay3 (F := Ideal) v0) clsV) natLt_1_32)) bitsLt_bf16_f32

theorem maskV_apply (v0 : Vec Ideal S256x256 .f32) (p : Fin 256) (k : Fin 4096) :
    maskV v0 (ix2 p k)
      = if Ideal.fptosi 32 (v0 (ix2 p (⟨128 + k.val % 128, by omega⟩ : Fin 256))) = BitVec.ofNat 32 (k.val / 128)
        then (1 : EReal) else 0 := by
  show ((((IntOp.cmpi .eq (k0_pay3 (F := Ideal) v0 (ix2 p k)) (clsV (ix2 p k))).setWidth 32).toInt : ℝ) : EReal) = _
  rw [pay3_apply, clsV_apply, bit_to_ereal]
  simp only [IntOp.cmpi_eq]

/-! ## The product at an index -/

/-- The product's dimension numbers: lanes of the mask against rows of the table. -/
abbrev D : DotDims S256x4096 S4096x1024 S256x1024 := dot_S256x4096_S4096x1024_S256x1024_1_0_0_1_n_n

theorem D_rank : D.contr.rank = 1 := rfl
theorem D_size : D.contr.size ⟨0, by rw [D_rank]; exact Nat.one_pos⟩ = 4096 := rfl

theorem lhs_0 (j : S256x1024.Idx) (kk : D.contr.Idx) : (D.lhsIdx j kk 0 : ℕ) = j 0 := by
  simp only [Fin.isValue, Matrix.cons_val_zero, DotDims.lhsIdx, D,
    dot_S256x4096_S4096x1024_S256x1024_1_0_0_1_n_n, List.not_mem_nil, ↓reduceDIte, List.mem_cons, or_false,
    List.length_nil]
  rfl
theorem lhs_1 (j : S256x1024.Idx) (kk : D.contr.Idx) : (D.lhsIdx j kk 1 : ℕ) = kk ⟨0, by decide⟩ :=
  D.lhsIdx_val_of_single (cl := 1) rfl j kk
theorem rhs_0 (j : S256x1024.Idx) (kk : D.contr.Idx) : (D.rhsIdx j kk 0 : ℕ) = kk ⟨0, by decide⟩ :=
  D.rhsIdx_val_of_single (cr := 0) rfl j kk
theorem rhs_1 (j : S256x1024.Idx) (kk : D.contr.Idx) : (D.rhsIdx j kk 1 : ℕ) = j 1 := by
  simp only [Fin.isValue, Matrix.cons_val_one, Matrix.cons_val_zero, DotDims.rhsIdx, D,
    dot_S256x4096_S4096x1024_S256x1024_1_0_0_1_n_n, List.not_mem_nil, ↓reduceDIte, List.mem_cons, or_false,
    List.length_nil, List.length_cons, Nat.reduceAdd]
  rfl

/-- A product into the zero splat, at (p, q): the sum over the 4096 lanes. -/
theorem mm_apply (m : FVec Ideal S256x4096 .bf16) (v : FVec Ideal S4096x1024 .bf16) (p : Fin 256) (q : Fin 1024) :
    matmul D none m v (constant S256x1024 .f32 0x00000000#32) (ix2 p q) = ∑ k : Fin 4096, m (ix2 p k) * v (ix2 k q) := by
  refine (Ideal.matmul_constant_zero_apply D none m v (ix2 p q)).trans ?_
  rw [← Equiv.sum_comp (contrEquiv1 D 4096 D_rank D_size).symm]
  refine Finset.sum_congr rfl fun k _ => ?_
  congr 2
  · apply Shape.idx_ext₂
    · rw [lhs_0]
    · rw [lhs_1, contrEquiv1_symm_val]
  · apply Shape.idx_ext₂
    · rw [rhs_0, contrEquiv1_symm_val]
    · rw [rhs_1]

end PayCat

open PayCat in
/-- The categorical payload at (p, q). -/
theorem pay1_apply (v0 : Vec Ideal S256x256 .f32) (v57 v60 : Vec Ideal S4096x1024 .bf16)
    (L : Fin 1024 → Fin 32 → ℝ) (fc : Fin 1024 → Fin 128)
    (h57 : ∀ (k : Fin 4096) (q : Fin 1024), v57 (ix2 k q)
      = ((L q (⟨k.val / 128, by omega⟩ : Fin 32) : ℝ) : EReal) * (if k.val % 128 = (fc q).val then (1 : EReal) else 0))
    (h60 : ∀ (k : Fin 4096) (q : Fin 1024), v60 (ix2 k q) = v57 (ix2 k q) - v57 (ix2 k q))
    (p : Fin 256)
    (hcls : ∀ f : Fin 128, (Ideal.fptosi 32 (v0 (ix2 p (⟨128 + f.val, by omega⟩ : Fin 256)))).toNat < 32)
    (q : Fin 1024) :
    k0_pay1 (F := Ideal) (k0_pay3 (F := Ideal) v0) (iota .tc S256x4096 32 [1] iota_S256x4096_d1_w32) 128#32 k0_pay4 k0_pay5
        (Scalar.extui (Scalar.cmpi .sgt 128#32 0#32)) (Scalar.extui (Scalar.cmpi .slt 128#32 0#32)) v57 v60 (ix2 p q)
      = ((L q (cls (v0 (ix2 p (⟨128 + (fc q).val, by omega⟩ : Fin 256)))) : ℝ) : EReal) := by
  have e : k0_pay1 (F := Ideal) (k0_pay3 (F := Ideal) v0) (iota .tc S256x4096 32 [1] iota_S256x4096_d1_w32) 128#32 k0_pay4 k0_pay5
        (Scalar.extui (Scalar.cmpi .sgt 128#32 0#32)) (Scalar.extui (Scalar.cmpi .slt 128#32 0#32)) v57 v60
      = addf (matmul D none (maskV v0) (shapeCast S4096x1024 v57 shapeCasts_S4096x1024_S4096x1024) (constant S256x1024 .f32 0x00000000#32))
          (matmul D none (maskV v0) (shapeCast S4096x1024 v60 shapeCasts_S4096x1024_S4096x1024) (constant S256x1024 .f32 0x00000000#32)) := rfl
  rw [e, addf_apply, shapeCast_self, shapeCast_self, mm_apply, mm_apply]
  have s1 : (∑ k : Fin 4096, maskV v0 (ix2 p k) * v57 (ix2 k q))
      = ((L q (cls (v0 (ix2 p (⟨128 + (fc q).val, by omega⟩ : Fin 256)))) : ℝ) : EReal) := by
    rw [Finset.sum_congr rfl fun k _ => by rw [maskV_apply, h57]]
    exact sel_sum (fun f => Ideal.fptosi 32 (v0 (ix2 p (⟨128 + f.val, by omega⟩ : Fin 256)))) hcls (L q) (fc q)
  have s2 : (∑ k : Fin 4096, maskV v0 (ix2 p k) * v60 (ix2 k q)) = 0 := by
    rw [Finset.sum_congr rfl fun k _ => by rw [h60]]
    exact low_sum _ (fun k => v57 (ix2 k q)) (fun k => by rw [h57]; exact coe_mul_ind _ _)
  rw [s1, s2, add_zero]

end Cert.Leaves

end
-- ==== Proof.Blocks.lean ====
/-
  From the blocks to the array. The grid has 64 points; point t stages rows 256·t … 256·t + 255 of x (all 256
  columns) and the whole of every other operand, and writes back rows 256·t … 256·t + 255 of the result (all 2048
  columns): columns below 1024 from the Gaussian payload, the others from the categorical payload. On the domain
  every entry the point writes is the specification's entry at that row and column, and the 64 blocks cover the
  result, so the array the run ends with is the specification.
-/
import proofs.«424448_j26723286515898_3_alg».proof.Proof.Gen.KernelIdeal.Value
import proofs.«424448_j26723286515898_3_alg».proof.Proof.Glue
import proofs.«424448_j26723286515898_3_alg».proof.Proof.GlueTable
import proofs.«424448_j26723286515898_3_alg».proof.Proof.PayGauss
import proofs.«424448_j26723286515898_3_alg».proof.Proof.PayCat
import Idealize.ShloMosaic.Lib.Pipeline.Value

noncomputable section

namespace Cert.Leaves

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-! ## What the body leaves in the output block -/

/-- The output block, index by index: columns below 1024 the Gaussian payload, the rest the categorical one. -/
def blockVal (x0 : Vec Ideal S256x256 .f32) (x1 : Vec Ideal S256x1024 .bf16) (x2 x3 : Vec Ideal S4096x1024 .bf16)
    (x4 x5 x6 : Vec Ideal S1x1024 .f32) : S256x2048.Idx → EReal := fun y =>
  if h : (y 1).val < 1024 then
    k0_pay2 (F := Ideal) x0 x1 x4 x5 x6 (ix2 (⟨(y 0).val, idx2_lt0 y⟩ : Fin 256) (⟨(y 1).val, h⟩ : Fin 1024))
  else
    k0_pay1 (F := Ideal) (k0_pay3 (F := Ideal) x0) (iota .tc S256x4096 32 [1] iota_S256x4096_d1_w32) 128#32 k0_pay4 k0_pay5
      (Scalar.extui (Scalar.cmpi .sgt 128#32 0#32)) (Scalar.extui (Scalar.cmpi .slt 128#32 0#32)) x2 x3
      (ix2 (⟨(y 0).val, idx2_lt0 y⟩ : Fin 256) (⟨(y 1).val - 1024, by have := idx2_lt1 y; omega⟩ : Fin 1024))

/-- The two stores tile the block: the left half holds the Gaussian payload, the right half the categorical one. -/
theorem out_eq_blockVal (x0 : Vec Ideal S256x256 .f32) (x1 : Vec Ideal S256x1024 .bf16) (x2 x3 : Vec Ideal S4096x1024 .bf16)
    (x4 x5 x6 : Vec Ideal S1x1024 .f32) :
    out0_7 (F := Ideal) x0 x1 x2 x3 x4 x5 x6 = blockVal x0 x1 x2 x3 x4 x5 x6 := by
  funext y
  unfold out0_7
  simp only [View.ld_unit_zero (S := S256x256) hz2, View.ld_unit_zero (S := S256x1024) hz2,
    View.ld_unit_zero (S := S4096x1024) hz2, View.ld_unit_zero (S := S1x1024) hz2]
  refine View.canon_apply_of_pieces (Val := Elt Ideal) (blockVal x0 x1 x2 x3 x4 x5 x6) _ ?_ y (cover0_7 _ _ y)
  intro pc hpc x
  simp only [List.mem_cons, List.not_mem_nil, or_false] at hpc
  rcases hpc with rfl | rfl
  · -- the right half: columns 1024 …
    have h1 : ((r0_5.emb x) 1).val = 1024 + (x 1).val := by
      show 1024 + 1 * (x 1).val = _; omega
    have h0 : ((r0_5.emb x) 0).val = (x 0).val := by
      show 0 + 1 * (x 0).val = _; omega
    unfold blockVal
    rw [dif_neg (by rw [h1]; omega)]
    refine congrArg _ ?_
    funext a
    match a with
    | ⟨0, _⟩ => exact Fin.ext h0.symm
    | ⟨1, _⟩ => exact Fin.ext (by show (x 1).val = ((r0_5.emb x) 1).val - 1024; rw [h1]; omega)
  · -- the left half: columns … 1023
    have hx1 : (x 1).val < 1024 := (x 1).isLt
    have h1 : ((r0_4.emb x) 1).val = (x 1).val := by
      show 0 + 1 * (x 1).val = _; omega
    have h0 : ((r0_4.emb x) 0).val = (x 0).val := by
      show 0 + 1 * (x 0).val = _; omega
    unfold blockVal
    rw [dif_pos (by rw [h1]; exact hx1)]
    refine congrArg _ ?_
    funext a
    match a with
    | ⟨0, _⟩ => exact Fin.ext h0.symm
    | ⟨1, _⟩ => exact Fin.ext h1.symm

/-! ## The windows' blocks as the argument arrays -/

/-- The printed index maps, decided over the 64 points: the block of x and of the result move with the point
    along the rows; every other operand is staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The global row of local row p at point t. -/
def rowAt (t : Fin cfg0.N) (p : Fin 256) : Fin 16384 := ⟨t.val * 256 + p.val, by
  have ht : t.val < 64 := t.isLt
  have hp := p.isLt
  omega⟩

/-- The windows' blocks at point t, each named at its literal type. -/
abbrev bX (c : Dev nD) (t : Fin cfg0.N) : S256x256.Idx → EReal := iblk m c 0 t
abbrev bOh (c : Dev nD) (t : Fin cfg0.N) : S256x1024.Idx → EReal := iblk m c 1 t
abbrev bMhi (c : Dev nD) (t : Fin cfg0.N) : S4096x1024.Idx → EReal := iblk m c 2 t
abbrev bMlo (c : Dev nD) (t : Fin cfg0.N) : S4096x1024.Idx → EReal := iblk m c 3 t
abbrev bMu (c : Dev nD) (t : Fin cfg0.N) : S1x1024.Idx → EReal := iblk m c 4 t
abbrev bInv (c : Dev nD) (t : Fin cfg0.N) : S1x1024.Idx → EReal := iblk m c 5 t
abbrev bGc (c : Dev nD) (t : Fin cfg0.N) : S1x1024.Idx → EReal := iblk m c 6 t

/-- The block of x at point t: rows 256·t …, every column. -/
theorem blkX_apply (c : Dev nD) (t : Fin cfg0.N) (p : Fin 256) (k : Fin 256) :
    (bX m c t) (ix2 p k) = aX m c (ix2 (rowAt t p) k) := by
  obtain ⟨e0, e1, -⟩ := idx_facts t
  show V m c main_arg0 (((cfg0.win 0).blk t).view.emb (ix2 p k)) = _
  rw [V_main_arg0]
  refine congrArg (aX m c) ?_
  funext a; apply Fin.ext
  match a with
  | ⟨0, _⟩ => show win0_0.index t (0 : Fin 2) * 256 + 1 * p.val = t.val * 256 + p.val; rw [e0]; omega
  | ⟨1, _⟩ => show win0_0.index t (1 : Fin 2) * 256 + 1 * k.val = k.val; rw [e1]; omega

/-- The stacked one-hot is staged whole. -/
theorem blkOh_apply (c : Dev nD) (t : Fin cfg0.N) (k : Fin 256) (q : Fin 1024) :
    (bOh m c t) (ix2 k q) = wOh m c (ix2 k q) := by
  obtain ⟨-, -, e0, e1, -⟩ := idx_facts t
  show V m c main_v11 (((cfg0.win 1).blk t).view.emb (ix2 k q)) = _
  refine congrArg (wOh m c) ?_
  funext a; apply Fin.ext
  match a with
  | ⟨0, _⟩ => show win0_1.index t (0 : Fin 2) * 256 + 1 * k.val = k.val; rw [e0]; omega
  | ⟨1, _⟩ => show win0_1.index t (1 : Fin 2) * 1024 + 1 * q.val = q.val; rw [e1]; omega

/-- The categorical table is staged whole. -/
theorem blkMhi_apply (c : Dev nD) (t : Fin cfg0.N) (k : Fin 4096) (q : Fin 1024) :
    (bMhi m c t) (ix2 k q) = wMhi m c (ix2 k q) := by
  obtain ⟨-, -, -, -, e0, e1, -⟩ := idx_facts t
  show V m c main_v34 (((cfg0.win 2).blk t).view.emb (ix2 k q)) = _
  refine congrArg (wMhi m c) ?_
  funext a; apply Fin.ext
  match a with
  | ⟨0, _⟩ => show win0_2.index t (0 : Fin 2) * 4096 + 1 * k.val = k.val; rw [e0]; omega
  | ⟨1, _⟩ => show win0_2.index t (1 : Fin 2) * 1024 + 1 * q.val = q.val; rw [e1]; omega

/-- Its low part is staged whole. -/
theorem blkMlo_apply (c : Dev nD) (t : Fin cfg0.N) (k : Fin 4096) (q : Fin 1024) :
    (bMlo m c t) (ix2 k q) = wMlo m c (ix2 k q) := by
  obtain ⟨-, -, -, -, -, -, e0, e1, -⟩ := idx_facts t
  show V m c main_v37 (((cfg0.win 3).blk t).view.emb (ix2 k q)) = _
  refine congrArg (wMlo m c) ?_
  funext a; apply Fin.ext
  match a with
  | ⟨0, _⟩ => show win0_3.index t (0 : Fin 2) * 4096 + 1 * k.val = k.val; rw [e0]; omega
  | ⟨1, _⟩ => show win0_3.index t (1 : Fin 2) * 1024 + 1 * q.val = q.val; rw [e1]; omega

/-- The row of means is staged whole. -/
theorem blkMu_apply (c : Dev nD) (t : Fin cfg0.N) (q : Fin 1024) :
    (bMu m c t) (ix2 (0 : Fin 1) q) = wMu m c (ix2 (0 : Fin 1) q) := by
  obtain ⟨-, -, -, -, -, -, -, -, e0, e1, -⟩ := idx_facts t
  show V m c main_v18 (((cfg0.win 4).blk t).view.emb (ix2 (0 : Fin 1) q)) = _
  refine congrArg (wMu m c) ?_
  funext a; apply Fin.ext
  match a with
  | ⟨0, _⟩ => show win0_4.index t (0 : Fin 2) * 1 + 1 * 0 = 0; rw [e0]
  | ⟨1, _⟩ => show win0_4.index t (1 : Fin 2) * 1024 + 1 * q.val = q.val; rw [e1]; omega

/-- The row of reciprocal deviations is staged whole. -/
theorem blkInv_apply (c : Dev nD) (t : Fin cfg0.N) (q : Fin 1024) :
    (bInv m c t) (ix2 (0 : Fin 1) q) = wInv m c (ix2 (0 : Fin 1) q) := by
  obtain ⟨-, -, -, -, -, -, -, -, -, -, e0, e1, -⟩ := idx_facts t
  show V m c main_v21 (((cfg0.win 5).blk t).view.emb (ix2 (0 : Fin 1) q)) = _
  refine congrArg (wInv m c) ?_
  funext a; apply Fin.ext
  match a with
  | ⟨0, _⟩ => show win0_5.index t (0 : Fin 2) * 1 + 1 * 0 = 0; rw [e0]
  | ⟨1, _⟩ => show win0_5.index t (1 : Fin 2) * 1024 + 1 * q.val = q.val; rw [e1]; omega

/-- The row of additive constants is staged whole. -/
theorem blkGc_apply (c : Dev nD) (t : Fin cfg0.N) (q : Fin 1024) :
    (bGc m c t) (ix2 (0 : Fin 1) q) = wGc m c (ix2 (0 : Fin 1) q) := by
  obtain ⟨-, -, -, -, -, -, -, -, -, -, -, -, e0, e1, -⟩ := idx_facts t
  show V m c main_v26 (((cfg0.win 6).blk t).view.emb (ix2 (0 : Fin 1) q)) = _
  refine congrArg (wGc m c) ?_
  funext a; apply Fin.ext
  match a with
  | ⟨0, _⟩ => show win0_6.index t (0 : Fin 2) * 1 + 1 * 0 = 0; rw [e0]
  | ⟨1, _⟩ => show win0_6.index t (1 : Fin 2) * 1024 + 1 * q.val = q.val; rw [e1]; omega

/-! ## Every entry a point writes is the specification's -/

/-- The block of x is finite on the domain. -/
theorem blkX_fin (c : Dev nD) (t : Fin cfg0.N)
    (hd : Dom (aX m c) (aMu m c) (aSd m c) (aLp m c) (aGs m c) (aCs m c)) (i : S256x256.Idx) :
    ∃ r : ℝ, bX m c t i = (r : EReal) := by
  obtain ⟨p, k, rfl⟩ : ∃ (p : Fin 256) (k : Fin 256), i = ix2 p k := ⟨i 0, i 1, eq_ix2 i⟩
  obtain ⟨r, hr⟩ := hd.x_fin (ix2 (rowAt t p) k)
  exact ⟨r, (blkX_apply m c t p k).trans hr⟩

/-- A scope word of the domain is its own column. -/
theorem col_of_lt {w : BitVec 32} (h : w.toNat < 256) : col w = (⟨w.toNat, h⟩ : Fin 256) :=
  Fin.ext (Nat.mod_eq_of_lt h)

/-- The Gaussian entries: the kernel's grouping of the log-density at the selected feature, which on the domain is
    the reference's grouping. -/
theorem gauss_at (c : Dev nD) (t : Fin cfg0.N)
    (hd : Dom (aX m c) (aMu m c) (aSd m c) (aLp m c) (aGs m c) (aCs m c)) (p : Fin 256) (q : Fin 1024) :
    k0_pay2 (F := Ideal) (bX m c t) (bOh m c t) (bMu m c t) (bInv m c t) (bGc m c t) (ix2 p q)
      = gaussR (aX m c (ix2 (rowAt t p) (col (aGs m c (ix1 q))))) (aMu m c (ix1 q)) (aSd m c (ix1 q)) := by
  have hq : (aGs m c (ix1 q)).toNat < 128 := hd.gs_lt q
  refine (pay2_apply (bX m c t) (bOh m c t) (bMu m c t) (bInv m c t) (bGc m c t) (blkX_fin m c t hd)
    (fun q => ⟨(aGs m c (ix1 q)).toNat, hd.gs_lt q⟩)
    (fun k q => (blkOh_apply m c t k q).trans (wOh_apply m c hd.gs_lt k q)) p q).trans ?_
  rw [blkX_apply, blkMu_apply, blkInv_apply, blkGc_apply, wMu_apply, wInv_apply, wGc_apply,
    col_of_lt (show (aGs m c (ix1 q)).toNat < 256 by omega)]
  obtain ⟨a, ha⟩ := hd.x_fin (ix2 (rowAt t p) (⟨(aGs m c (ix1 q)).toNat, by omega⟩ : Fin 256))
  obtain ⟨mu, hmu⟩ := hd.mu_fin (ix1 q)
  obtain ⟨s, hs, hpos⟩ := hd.sd_pos (ix1 q)
  rw [ha, hmu, hs]
  exact gaussK_eq_gaussR a mu s hpos

/-- The categorical entries: the table's value at the class of the selected feature. -/
theorem cat_at (c : Dev nD) (t : Fin cfg0.N)
    (hd : Dom (aX m c) (aMu m c) (aSd m c) (aLp m c) (aGs m c) (aCs m c)) (p : Fin 256) (q : Fin 1024) :
    k0_pay1 (F := Ideal) (k0_pay3 (F := Ideal) (bX m c t)) (iota .tc S256x4096 32 [1] iota_S256x4096_d1_w32) 128#32 k0_pay4 k0_pay5
        (Scalar.extui (Scalar.cmpi .sgt 128#32 0#32)) (Scalar.extui (Scalar.cmpi .slt 128#32 0#32)) (bMhi m c t) (bMlo m c t) (ix2 p q)
      = aLp m c (ix2 q (cls (aX m c (ix2 (rowAt t p) (col (aCs m c (ix1 q))))))) := by
  have hge : ∀ q : Fin 1024, 128 ≤ (aCs m c (ix1 q)).toNat := hd.cs_ge
  have hlt : ∀ q : Fin 1024, (aCs m c (ix1 q)).toNat < 256 := hd.cs_lt
  -- the table's entries as reals
  choose L hL using fun (q : Fin 1024) (kk : Fin 32) => hd.lp_fin (ix2 q kk)
  have h57 : ∀ (k : Fin 4096) (q : Fin 1024), (bMhi m c t) (ix2 k q)
      = ((L q (⟨k.val / 128, by omega⟩ : Fin 32) : ℝ) : EReal)
        * (if k.val % 128 = ((⟨(aCs m c (ix1 q)).toNat - 128, by have := hlt q; omega⟩ : Fin 128)).val then (1 : EReal) else 0) := by
    intro k q
    rw [blkMhi_apply, wMhi_apply m c hge hlt, hL]
    have := hge q
    refine congrArg _ (if_congr ?_ rfl rfl)
    show k.val % 128 + 128 = (aCs m c (ix1 q)).toNat ↔ k.val % 128 = (aCs m c (ix1 q)).toNat - 128
    omega
  have h60 : ∀ (k : Fin 4096) (q : Fin 1024), (bMlo m c t) (ix2 k q)
      = (bMhi m c t) (ix2 k q) - (bMhi m c t) (ix2 k q) := by
    intro k q
    rw [blkMlo_apply, wMlo_apply, blkMhi_apply]
  have hcls : ∀ f : Fin 128, (Ideal.fptosi 32 ((bX m c t) (ix2 p (⟨128 + f.val, by omega⟩ : Fin 256)))).toNat < 32 := by
    intro f
    rw [blkX_apply]
    exact hd.cls_lt (rowAt t p) f
  refine (pay1_apply (bX m c t) (bMhi m c t) (bMlo m c t) L
    (fun q => ⟨(aCs m c (ix1 q)).toNat - 128, by have := hlt q; omega⟩) h57 h60 p hcls q).trans ?_
  rw [blkX_apply, ← hL, col_of_lt (hlt q)]
  have := hge q
  have e : (⟨128 + ((aCs m c (ix1 q)).toNat - 128), by have := hlt q; omega⟩ : Fin 256) = ⟨(aCs m c (ix1 q)).toNat, hlt q⟩ :=
    Fin.ext (by show 128 + ((aCs m c (ix1 q)).toNat - 128) = (aCs m c (ix1 q)).toNat; omega)
  rw [e]

/-- Entry (p, jj) of the block point t writes is the specification at row 256·t + p, column jj. -/
theorem blockVal_at (c : Dev nD) (t : Fin cfg0.N)
    (hd : Dom (aX m c) (aMu m c) (aSd m c) (aLp m c) (aGs m c) (aCs m c)) (p : Fin 256) (jj : Fin 2048) :
    blockVal (bX m c t) (bOh m c t) (bMhi m c t) (bMlo m c t) (bMu m c t) (bInv m c t) (bGc m c t) (ix2 p jj)
      = G (aX m c) (aMu m c) (aSd m c) (aLp m c) (aGs m c) (aCs m c) (ix2 (rowAt t p) jj) := by
  unfold blockVal G
  by_cases h : jj.val < 1024
  · rw [dif_pos (show ((ix2 p jj : S256x2048.Idx) 1).val < 1024 from h),
      dif_pos (show ((ix2 (rowAt t p) jj : SO.Idx) 1).val < 1024 from h)]
    exact gauss_at m c t hd p ⟨jj.val, h⟩
  · rw [dif_neg (show ¬ ((ix2 p jj : S256x2048.Idx) 1).val < 1024 from h),
      dif_neg (show ¬ ((ix2 (rowAt t p) jj : SO.Idx) 1).val < 1024 from h)]
    exact cat_at m c t hd p ⟨jj.val - 1024, by have := jj.isLt; omega⟩

/-! ## The array after the run -/

/-- What point t writes back is block t of the specification. -/
theorem flushed_eq (c : Dev nD) (t : Fin cfg0.N)
    (hd : Dom (aX m c) (aMu m c) (aSd m c) (aLp m c) (aGs m c) (aCs m c)) :
    (dats m 0 c).flushed 7 t
      = ((cfg0.win 7).blk t).view.read (Elt Ideal) (G (aX m c) (aMu m c) (aSd m c) (aLp m c) (aGs m c) (aCs m c)) := by
  rw [Cert.KernelIdeal.Value.flushed7, out_eq_blockVal]
  obtain ⟨-, -, -, -, -, -, -, -, -, -, -, -, -, -, e0, e1⟩ := idx_facts t
  funext y
  show blockVal (bX m c t) (bOh m c t) (bMhi m c t) (bMlo m c t) (bMu m c t) (bInv m c t) (bGc m c t) y
    = G (aX m c) (aMu m c) (aSd m c) (aLp m c) (aGs m c) (aCs m c) (((cfg0.win 7).blk t).view.emb y)
  have hy0 : (y 0).val < 256 := (y 0).isLt
  have hy1 : (y 1).val < 2048 := (y 1).isLt
  have key := blockVal_at m c t hd ⟨(y 0).val, hy0⟩ ⟨(y 1).val, hy1⟩
  have ey : y = ix2 (⟨(y 0).val, hy0⟩ : Fin 256) (⟨(y 1).val, hy1⟩ : Fin 2048) := by
    funext a
    match a with
    | ⟨0, _⟩ => rfl
    | ⟨1, _⟩ => rfl
  have ei : ((cfg0.win 7).blk t).view.emb y = ix2 (rowAt t ⟨(y 0).val, hy0⟩) (⟨(y 1).val, hy1⟩ : Fin 2048) := by
    funext a; apply Fin.ext
    match a with
    | ⟨0, _⟩ => show win0_7.index t (0 : Fin 2) * 256 + 1 * (y 0).val = t.val * 256 + (y 0).val; rw [e0]; omega
    | ⟨1, _⟩ => show win0_7.index t (1 : Fin 2) * 2048 + 1 * (y 1).val = (y 1).val; rw [e1]; omega
  rw [ei]
  exact (congrArg _ ey).trans key

/-- An index of the result is in point t's block iff each coordinate is in the block's range on its axis. -/
theorem mem_blk7 (t : Fin cfg0.N) (i : S16384x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v38).slice (win0_7.rect t)).set ↔ _
  rw [View.set_slice_whole, Rect.mem_set_unit]
  exact Iff.rfl

/-- The 64 blocks cover the result: row r is in the block of point r / 256. -/
theorem cover7 (i : S16384x2048.Idx) :
    ∃ t : Fin cfg0.N, (cfg0.win 7).flush t = true ∧ i ∈ ((cfg0.win 7).blk t).view.set := by
  have hi0 : (i 0).val < 16384 := (i 0).isLt
  have hi1 : (i 1).val < 2048 := (i 1).isLt
  have hN : cfg0.N = 64 := N_0
  let t : Fin cfg0.N := ⟨(i 0).val / 256, by rw [hN]; omega⟩
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e0]
    show (i 0).val / 256 * 256 ≤ (i 0).val ∧ (i 0).val < (i 0).val / 256 * 256 + 256
    omega
  | ⟨1, _⟩ =>
    show win0_7.index t (1 : Fin 2) * 2048 ≤ (i 1).val ∧ (i 1).val < win0_7.index t (1 : Fin 2) * 2048 + 2048
    rw [e1]
    omega

/-- THE ARRAY after the run is the specification of the argument arrays. -/
theorem kernel_final (c : Dev nD)
    (hd : Dom (aX m c) (aMu m c) (aSd m c) (aLp m c) (aGs m c) (aCs m c)) :
    (dats m 0 c).arrAt 7 cfg0.N = G (aX m c) (aMu m c) (aSd m c) (aLp m c) (aGs m c) (aCs m c) :=
  (dats m 0 c).arrAt_eq_of_cover 7 (G (aX m c) (aMu m c) (aSd m c) (aLp m c) (aGs m c) (aCs m c))
    (fun t _ => flushed_eq m c t hd) cover7

end Cert.Leaves

end
-- ==== Proof.RefGather.lean ====
/-
  The reference's two gathers read at an index. A start index is read signed and clamped so that the slice fits
  (a negative word clamps to 0).
  * `x[:, idx]`: result (r, j) is x at row r and column clamp(idx[j, 0], 0, 255).
  * `logp[ia, ib]` with both coordinates gathered: result (r, j) is logp at (clamp(idx[r, j, 0], 0, 1023),
    clamp(idx[r, j, 1], 0, 31)).
-/
import proofs.«424448_j26723286515898_3_alg».proof.ReferenceIdeal
import proofs.«424448_j26723286515898_3_alg».proof.Proof.Gen.ReferenceIdeal
import Idealize.ShloMosaic.Lib.ValueIdx

noncomputable section

namespace Cert.Leaves

open Cert.ReferenceIdeal Idealize.ShloMosaic Idealize.ShloMosaic.ValueIdx

/-- The column gather at (r, j). -/
theorem gatherCols_apply {α : Type} (x : S16384x256.Idx → α) (idx : IVec S1024x1 32) (r : Fin 16384) (j : Fin 1024) :
    Host.gather gather_S16384x256_S1024x1_S16384x1024_0_1_n_n_1_1_163841 x idx (ix2 r j)
      = x (ix2 r (⟨min (idx (ix2 j (0 : Fin 1))).toInt.toNat 255, by omega⟩ : Fin 256)) := by
  unfold Host.gather
  congr 1
  funext a
  refine Fin.ext ?_
  match a with
  | ⟨0, _⟩ =>
    show gather_S16384x256_S1024x1_S16384x1024_0_1_n_n_1_1_163841.start (ix2 r j) idx 0
        + gather_S16384x256_S1024x1_S16384x1024_0_1_n_n_1_1_163841.batchCoord (ix2 r j) 0
        + gather_S16384x256_S1024x1_S16384x1024_0_1_n_n_1_1_163841.offCoord (ix2 r j) 0 = r.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show gather_S16384x256_S1024x1_S16384x1024_0_1_n_n_1_1_163841.start (ix2 r j) idx 1
        + gather_S16384x256_S1024x1_S16384x1024_0_1_n_n_1_1_163841.batchCoord (ix2 r j) 1
        + gather_S16384x256_S1024x1_S16384x1024_0_1_n_n_1_1_163841.offCoord (ix2 r j) 1
        = min (idx (ix2 j (0 : Fin 1))).toInt.toNat 255
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x256_S1024x1_S16384x1024_0_1_n_n_1_1_163841.startIndexMap from
      List.mem_singleton.mpr rfl)]
    have hsi : gather_S16384x256_S1024x1_S16384x1024_0_1_n_n_1_1_163841.siIdx (ix2 r j)
        ⟨List.idxOf (1 : Fin 2) gather_S16384x256_S1024x1_S16384x1024_0_1_n_n_1_1_163841.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- The two-coordinate gather at (r, j). -/
theorem gatherPair_apply {α : Type} (lp : S1024x32.Idx → α) (idx : IVec S16384x1024x2 32) (r : Fin 16384) (j : Fin 1024) :
    Host.gather gather_S1024x32_S16384x1024x2_S16384x1024_n_01_n_n_01_2_11 lp idx (ix2 r j)
      = lp (ix2 (⟨min (idx (ix3 r j (0 : Fin 2))).toInt.toNat 1023, by omega⟩ : Fin 1024)
          (⟨min (idx (ix3 r j (1 : Fin 2))).toInt.toNat 31, by omega⟩ : Fin 32)) := by
  unfold Host.gather
  congr 1
  funext a
  refine Fin.ext ?_
  match a with
  | ⟨0, _⟩ =>
    show gather_S1024x32_S16384x1024x2_S16384x1024_n_01_n_n_01_2_11.start (ix2 r j) idx 0
        + gather_S1024x32_S16384x1024x2_S16384x1024_n_01_n_n_01_2_11.batchCoord (ix2 r j) 0
        + gather_S1024x32_S16384x1024x2_S16384x1024_n_01_n_n_01_2_11.offCoord (ix2 r j) 0
        = min (idx (ix3 r j (0 : Fin 2))).toInt.toNat 1023
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S1024x32_S16384x1024x2_S16384x1024_n_01_n_n_01_2_11.startIndexMap from by decide)]
    have hsi : gather_S1024x32_S16384x1024x2_S16384x1024_n_01_n_n_01_2_11.siIdx (ix2 r j)
        ⟨List.idxOf (0 : Fin 2) gather_S1024x32_S16384x1024x2_S16384x1024_n_01_n_n_01_2_11.startIndexMap,
          List.idxOf_lt_length_iff.2 (by decide)⟩ = ix3 r j (0 : Fin 2) := by
      funext b; refine Fin.ext ?_
      match b with
      | ⟨0, _⟩ => rfl
      | ⟨1, _⟩ => rfl
      | ⟨2, _⟩ => rfl
    rw [hsi]
    rfl
  | ⟨1, _⟩ =>
    show gather_S1024x32_S16384x1024x2_S16384x1024_n_01_n_n_01_2_11.start (ix2 r j) idx 1
        + gather_S1024x32_S16384x1024x2_S16384x1024_n_01_n_n_01_2_11.batchCoord (ix2 r j) 1
        + gather_S1024x32_S16384x1024x2_S16384x1024_n_01_n_n_01_2_11.offCoord (ix2 r j) 1
        = min (idx (ix3 r j (1 : Fin 2))).toInt.toNat 31
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S1024x32_S16384x1024x2_S16384x1024_n_01_n_n_01_2_11.startIndexMap from by decide)]
    have hsi : gather_S1024x32_S16384x1024x2_S16384x1024_n_01_n_n_01_2_11.siIdx (ix2 r j)
        ⟨List.idxOf (1 : Fin 2) gather_S1024x32_S16384x1024x2_S16384x1024_n_01_n_n_01_2_11.startIndexMap,
          List.idxOf_lt_length_iff.2 (by decide)⟩ = ix3 r j (1 : Fin 2) := by
      funext b; refine Fin.ext ?_
      match b with
      | ⟨0, _⟩ => rfl
      | ⟨1, _⟩ => rfl
      | ⟨2, _⟩ => rfl
    rw [hsi]
    rfl

end Cert.Leaves

end
-- ==== Proof.RefGauss.lean ====
/-
  The reference's Gaussian half at an index: for a scope word below 128 the wrap of negative words and the gather's
  clamp are both the identity, so entry (r, j) is the log-density of x[r, g_j] under (μ_j, σ_j), in the reference's
  own grouping.
-/
import proofs.«424448_j26723286515898_3_alg».proof.Proof.RefReadP
import proofs.«424448_j26723286515898_3_alg».proof.Proof.Spec
import proofs.«424448_j26723286515898_3_alg».proof.Proof.RefGather
import Idealize.ShloMosaic.Lib.ValueIdx
import Idealize.ShloMosaic.Lib.IdealHost

noncomputable section

namespace Cert.Leaves

open Cert.ReferenceIdeal Idealize.ShloMosaic Idealize.ShloMosaic.ValueIdx

namespace RefGauss

/-! ## The scope words: the wrap of negative words and the gather's clamp are the identity below 128 -/

/-- A word below 128 is not negative: its signed comparison with zero is the bit 0. -/
theorem cmpi_slt_zero_of_lt (w : BitVec 32) (h : w.toNat < 128) : IntOp.cmpi .slt w 0#32 = 0#1 := by
  have hs : w.slt 0#32 = false := by
    rw [Bool.eq_false_iff]
    intro hh
    rw [BitVec.slt_iff_toInt_lt] at hh
    have e := BitVec.toInt_eq_toNat_cond w
    have h0 : (0#32 : BitVec 32).toInt = 0 := by decide
    rw [h0] at hh
    omega
  show BitVec.ofBool (w.slt 0#32) = 0#1
  rw [hs]
  rfl

/-- The wrap "if w < 0 then w + 256 else w" leaves a word below 128 alone. -/
theorem wrap_of_lt (w a : BitVec 32) (h : w.toNat < 128) :
    Scalar.select (IntOp.cmpi .slt w 0#32) a w = w := by
  rw [cmpi_slt_zero_of_lt w h]
  exact select_zero _ _

/-- The clamp into [0, 255] of a word below 128, read signed, is the word's column. -/
theorem clamp_val_eq_col (w : BitVec 32) (h : w.toNat < 128) : min w.toInt.toNat 255 = (col w).val := by
  show min w.toInt.toNat 255 = w.toNat % 256
  have e := BitVec.toInt_eq_toNat_cond w
  omega

/-! ## The operands of the arithmetic at (r, j) -/

/-- The start indices of the column gather at (j, 0): the scope word itself. -/
theorem v5_at (gs : IVec S1024 32) (hg : ∀ j : Fin 1024, (gs (ix1 j)).toNat < 128) (j : Fin 1024) :
    Cert.ReferenceIdeal.ReadP.val_main_v5 (F := Ideal) gs (ix2 j (0 : Fin 1)) = gs (ix1 j) := by
  rw [Cert.ReferenceIdeal.ReadP.val_main_v5_apply]
  have e : Cert.ReferenceIdeal.ReadP.idx_main_v5 (ix2 j (0 : Fin 1)) = ix1 j :=
    funext fun a => Fin.ext (by match a with | ⟨0, _⟩ => rfl)
  rw [e, Cert.ReferenceIdeal.ReadP.val_main_v4_apply, Cert.ReferenceIdeal.ReadP.val_main_v1_apply,
    Cert.ReferenceIdeal.ReadP.val_main_v0_apply, Cert.ReferenceIdeal.ReadP.val_main_c_apply]
  exact wrap_of_lt _ _ (hg j)

/-- The gathered feature at (r, j): x at row r and the scope's column. -/
theorem v6_at (x : FVec Ideal S16384x256 .f32) (gs : IVec S1024 32)
    (hg : ∀ j : Fin 1024, (gs (ix1 j)).toNat < 128) (r : Fin 16384) (j : Fin 1024) :
    Cert.ReferenceIdeal.ReadP.val_main_v6 (F := Ideal) x gs (ix2 r j) = x (ix2 r (col (gs (ix1 j)))) := by
  unfold Cert.ReferenceIdeal.ReadP.val_main_v6
  refine (gatherCols_apply x _ r j).trans ?_
  refine congrArg (fun c : Fin 256 => x (ix2 r c)) (Fin.ext ?_)
  show min (Cert.ReferenceIdeal.ReadP.val_main_v5 (F := Ideal) gs (ix2 j (0 : Fin 1))).toInt.toNat 255 = _
  rw [v5_at gs hg j]
  exact clamp_val_eq_col _ (hg j)

/-- The mean at (r, j). -/
theorem v8_at (mu : FVec Ideal S1024 .f32) (r : Fin 16384) (j : Fin 1024) :
    Cert.ReferenceIdeal.ReadP.val_main_v8 (F := Ideal) mu (ix2 r j) = mu (ix1 j) := by
  rw [Cert.ReferenceIdeal.ReadP.val_main_v8_apply, Cert.ReferenceIdeal.ReadP.val_main_v7_apply]
  exact congrArg mu (funext fun a => Fin.ext (by match a with | ⟨0, _⟩ => rfl))

/-- The deviation at (r, j). -/
theorem v11_at (sd : FVec Ideal S1024 .f32) (r : Fin 16384) (j : Fin 1024) :
    Cert.ReferenceIdeal.ReadP.val_main_v11 (F := Ideal) sd (ix2 r j) = sd (ix1 j) := by
  rw [Cert.ReferenceIdeal.ReadP.val_main_v11_apply, Cert.ReferenceIdeal.ReadP.val_main_v10_apply]
  exact congrArg sd (funext fun a => Fin.ext (by match a with | ⟨0, _⟩ => rfl))

/-- The deviation's logarithm at (r, j). -/
theorem v18_at (sd : FVec Ideal S1024 .f32) (r : Fin 16384) (j : Fin 1024) :
    Cert.ReferenceIdeal.ReadP.val_main_v18 (F := Ideal) sd (ix2 r j) = Ideal.log (sd (ix1 j)) := by
  rw [Cert.ReferenceIdeal.ReadP.val_main_v18_apply, Cert.ReferenceIdeal.ReadP.val_main_v17_apply,
    Cert.ReferenceIdeal.ReadP.val_main_v16_apply]
  exact congrArg (fun k => Ideal.log (sd k)) (funext fun a => Fin.ext (by match a with | ⟨0, _⟩ => rfl))

/-- The literal -1/2 at (r, j). -/
theorem v14_at (r : Fin 16384) (j : Fin 1024) :
    Cert.ReferenceIdeal.ReadP.val_main_v14 (F := Ideal) (ix2 r j) = cHalf := by
  rw [Cert.ReferenceIdeal.ReadP.val_main_v14_apply, Cert.ReferenceIdeal.ReadP.val_main_cst_apply]
  rfl

/-- The literal ½·log 2π at (r, j). -/
theorem v20_at (r : Fin 16384) (j : Fin 1024) :
    Cert.ReferenceIdeal.ReadP.val_main_v20 (F := Ideal) (ix2 r j) = cLog := by
  rw [Cert.ReferenceIdeal.ReadP.val_main_v20_apply, Cert.ReferenceIdeal.ReadP.val_main_cst_1_apply]
  rfl

end RefGauss

open RefGauss

/-! ## The Gaussian half -/

/-- The Gaussian half of the reference at (r, j). -/
theorem ref_gauss_apply (x : FVec Ideal S16384x256 .f32) (mu sd : FVec Ideal S1024 .f32) (gs : IVec S1024 32)
    (hg : ∀ j : Fin 1024, (gs (ix1 j)).toNat < 128) (r : Fin 16384) (j : Fin 1024) :
    Cert.ReferenceIdeal.ReadP.val_main_v21 (F := Ideal) x mu sd gs (ix2 r j)
      = gaussR (x (ix2 r (col (gs (ix1 j))))) (mu (ix1 j)) (sd (ix1 j)) := by
  rw [Cert.ReferenceIdeal.ReadP.val_main_v21_apply, Cert.ReferenceIdeal.ReadP.val_main_v19_apply,
    Cert.ReferenceIdeal.ReadP.val_main_v15_apply, Cert.ReferenceIdeal.ReadP.val_main_v13_apply,
    Cert.ReferenceIdeal.ReadP.val_main_v12_apply, Cert.ReferenceIdeal.ReadP.val_main_v9_apply,
    v6_at x gs hg r j, v8_at mu r j, v11_at sd r j, v18_at sd r j, v14_at r j, v20_at r j]
  rfl

end Cert.Leaves

end
-- ==== Proof.RefCat.lean ====
/-
  The reference's categorical half at an index: for a scope word in [128,256) and a class in [0,32) every wrap and
  every clamp is the identity, so entry (r, j) is logp[j, k] with k the class of the feature x[r, s_j].

  The pair of start indices at (r, j) is (j, c): j the leaf's own number (an iota, never negative), c the class
  word, the feature x[r, s_j] read as an integer. A word below 2³¹ is not negative as a signed word, so the wrap
  "if negative, add the extent" leaves the scope word, the leaf's number and the class word as they are; read signed
  and clamped into the table's extent each is its own natural number.
-/
import proofs.«424448_j26723286515898_3_alg».proof.Proof.RefReadP
import proofs.«424448_j26723286515898_3_alg».proof.Proof.Spec
import proofs.«424448_j26723286515898_3_alg».proof.Proof.RefGather
import Idealize.ShloMosaic.Lib.ValueIdx
import Idealize.ShloMosaic.Lib.IdealHost
import Idealize.ShloMosaic.Lib.Pipeline.Value

noncomputable section

namespace Cert.Leaves

open Cert.ReferenceIdeal Idealize.ShloMosaic Idealize.ShloMosaic.ValueIdx

/-! ## Signed words

A 32-bit word below 2³¹ is not negative read as a signed integer: the wrap "if negative, add the extent" leaves it,
and read signed and clamped into [0, n] it is its own natural number when that is at most n. -/

/-- A word below 2³¹ is not below zero in the signed order. -/
theorem cmpi_slt_zero_of_lt (w : BitVec 32) (h : w.toNat < 2147483648) : IntOp.cmpi .slt w 0#32 = 0#1 := by
  have hs : w.slt 0#32 = false := by
    rw [Bool.eq_false_iff]
    intro hh
    rw [BitVec.slt_iff_toInt_lt] at hh
    have e := BitVec.toInt_eq_toNat_cond w
    have z : (0#32 : BitVec 32).toInt = 0 := by decide
    omega
  show BitVec.ofBool (w.slt 0#32) = 0#1
  rw [hs]; rfl

/-- On such a word the wrap is the identity. -/
theorem select_wrap_of_lt (w a : BitVec 32) (h : w.toNat < 2147483648) :
    Scalar.select (IntOp.cmpi .slt w 0#32) a w = w := by
  rw [cmpi_slt_zero_of_lt w h]; exact select_zero _ _

/-- A small word read signed and clamped from above is its natural number. -/
theorem clamp_of_le (w : BitVec 32) (n : Nat) (h : w.toNat ≤ n) (hn : n < 2147483648) :
    min w.toInt.toNat n = w.toNat := by
  have e := BitVec.toInt_eq_toNat_cond w
  omega

/-! ## The column the scope word selects -/

/-- The wrapped scope word of leaf j is the scope word. -/
theorem v26_at (cs : IVec S1024 32) (j : Fin 1024) (h : (cs (ix1 j)).toNat < 256) :
    ReadP.val_main_v26 (F := Ideal) cs (ix1 j) = cs (ix1 j) := by
  rw [ReadP.val_main_v26_apply, ReadP.val_main_v23_apply, ReadP.val_main_v22_apply, ReadP.val_main_c_2_apply]
  exact select_wrap_of_lt _ _ (by omega)

theorem idx_v27_at (j : Fin 1024) : ReadP.idx_main_v27 (ix2 j (0 : Fin 1)) = ix1 j := by
  funext d; match d with | ⟨0, _⟩ => rfl

/-- The start index of the column gather at leaf j. -/
theorem v27_at (cs : IVec S1024 32) (j : Fin 1024) (h : (cs (ix1 j)).toNat < 256) :
    ReadP.val_main_v27 (F := Ideal) cs (ix2 j (0 : Fin 1)) = cs (ix1 j) := by
  rw [ReadP.val_main_v27_apply, idx_v27_at, v26_at cs j h]

/-- The gathered feature: x at row r and the column of leaf j's scope. -/
theorem v28_at (x : FVec Ideal S16384x256 .f32) (cs : IVec S1024 32) (r : Fin 16384) (j : Fin 1024)
    (h : (cs (ix1 j)).toNat < 256) :
    ReadP.val_main_v28 (F := Ideal) x cs (ix2 r j) = x (ix2 r (col (cs (ix1 j)))) := by
  unfold ReadP.val_main_v28
  refine (gatherCols_apply x (ReadP.val_main_v27 (F := Ideal) cs) r j).trans ?_
  have e : (⟨min (ReadP.val_main_v27 (F := Ideal) cs (ix2 j (0 : Fin 1))).toInt.toNat 255, by omega⟩ : Fin 256)
      = col (cs (ix1 j)) := by
    apply Fin.ext
    show min (ReadP.val_main_v27 (F := Ideal) cs (ix2 j (0 : Fin 1))).toInt.toNat 255 = (cs (ix1 j)).toNat % 256
    rw [v27_at cs j h, clamp_of_le _ 255 (by omega) (by omega), Nat.mod_eq_of_lt h]
  exact congrArg (fun c => x (ix2 r c)) e

/-- The class word: the gathered feature read as an integer. -/
theorem v29_at (x : FVec Ideal S16384x256 .f32) (cs : IVec S1024 32) (r : Fin 16384) (j : Fin 1024)
    (h : (cs (ix1 j)).toNat < 256) :
    ReadP.val_main_v29 (F := Ideal) x cs (ix2 r j) = Ideal.fptosi 32 (x (ix2 r (col (cs (ix1 j))))) := by
  refine (ReadP.val_main_v29_apply (F := Ideal) x cs (ix2 r j)).trans ?_
  exact congrArg (Ideal.fptosi 32) (v28_at x cs r j h)

/-- A class below 32 is left by its wrap. -/
theorem v41_at (x : FVec Ideal S16384x256 .f32) (cs : IVec S1024 32) (r : Fin 16384) (j : Fin 1024)
    (h : (cs (ix1 j)).toNat < 256) (hc : (Ideal.fptosi 32 (x (ix2 r (col (cs (ix1 j)))))).toNat < 32) :
    ReadP.val_main_v41 (F := Ideal) x cs (ix2 r j) = Ideal.fptosi 32 (x (ix2 r (col (cs (ix1 j))))) := by
  rw [ReadP.val_main_v41_apply, ReadP.val_main_v38_apply, ReadP.val_main_v37_apply, ReadP.val_main_c_6_apply,
    v29_at x cs r j h]
  exact select_wrap_of_lt _ _ (by omega)

theorem idx_v44_at (r : Fin 16384) (j : Fin 1024) : ReadP.idx_main_v44 (ix3 r j (0 : Fin 1)) = ix2 r j := by
  funext d; match d with | ⟨0, _⟩ => rfl | ⟨1, _⟩ => rfl

theorem v44_at (x : FVec Ideal S16384x256 .f32) (cs : IVec S1024 32) (r : Fin 16384) (j : Fin 1024)
    (h : (cs (ix1 j)).toNat < 256) (hc : (Ideal.fptosi 32 (x (ix2 r (col (cs (ix1 j)))))).toNat < 32) :
    ReadP.val_main_v44 (F := Ideal) x cs (ix3 r j (0 : Fin 1)) = Ideal.fptosi 32 (x (ix2 r (col (cs (ix1 j))))) := by
  rw [ReadP.val_main_v44_apply, idx_v44_at, v41_at x cs r j h hc]

/-! ## The leaf's own number as the first coordinate -/

theorem v31_at (j : Fin 1024) : ReadP.val_main_v31 (F := Ideal) (ix2 (0 : Fin 1) j) = BitVec.ofNat 32 j.val := by
  refine (ReadP.val_main_v31_apply (F := Ideal) (ix2 (0 : Fin 1) j)).trans ?_
  rfl

theorem v36_at (j : Fin 1024) : ReadP.val_main_v36 (F := Ideal) (ix2 (0 : Fin 1) j) = BitVec.ofNat 32 j.val := by
  rw [ReadP.val_main_v36_apply, ReadP.val_main_v33_apply, ReadP.val_main_v32_apply, ReadP.val_main_c_4_apply, v31_at]
  refine select_wrap_of_lt _ _ ?_
  rw [BitVec.toNat_ofNat]
  have := j.isLt
  omega

theorem idx_v42_at (r : Fin 16384) (j : Fin 1024) : ReadP.idx_main_v42 (ix2 r j) = ix2 (0 : Fin 1) j := by
  funext d; match d with | ⟨0, _⟩ => rfl | ⟨1, _⟩ => rfl

theorem idx_v43_at (r : Fin 16384) (j : Fin 1024) : ReadP.idx_main_v43 (ix3 r j (0 : Fin 1)) = ix2 r j := by
  funext d; match d with | ⟨0, _⟩ => rfl | ⟨1, _⟩ => rfl

theorem v43_at (r : Fin 16384) (j : Fin 1024) :
    ReadP.val_main_v43 (F := Ideal) (ix3 r j (0 : Fin 1)) = BitVec.ofNat 32 j.val := by
  rw [ReadP.val_main_v43_apply, idx_v43_at, ReadP.val_main_v42_apply, idx_v42_at, v36_at]

/-! ## The pair of start indices -/

theorem v45_at0 (x : FVec Ideal S16384x256 .f32) (cs : IVec S1024 32) (r : Fin 16384) (j : Fin 1024) :
    ReadP.val_main_v45 (F := Ideal) x cs (ix3 r j (0 : Fin 2)) = BitVec.ofNat 32 j.val := by
  unfold ReadP.val_main_v45
  refine (concatenate_pair_apply_left (t := S16384x1024x2) (s₁ := S16384x1024x1) (s₂ := S16384x1024x1) _ _ _ _
    (ix3 r j (0 : Fin 2)) rfl (ix3 r j (0 : Fin 1)) ?_).trans (v43_at r j)
  intro b
  match b with
  | ⟨0, _⟩ => rfl
  | ⟨1, _⟩ => rfl
  | ⟨2, _⟩ => rfl

theorem v45_at1 (x : FVec Ideal S16384x256 .f32) (cs : IVec S1024 32) (r : Fin 16384) (j : Fin 1024) :
    ReadP.val_main_v45 (F := Ideal) x cs (ix3 r j (1 : Fin 2))
      = ReadP.val_main_v44 (F := Ideal) x cs (ix3 r j (0 : Fin 1)) := by
  unfold ReadP.val_main_v45
  refine concatenate_pair_apply_right (t := S16384x1024x2) (s₁ := S16384x1024x1) (s₂ := S16384x1024x1) _ _ _ _
    (ix3 r j (1 : Fin 2)) rfl rfl (ix3 r j (0 : Fin 1)) ?_ ?_
  · intro b hb
    match b, hb with
    | ⟨0, _⟩, _ => rfl
    | ⟨1, _⟩, _ => rfl
    | ⟨2, _⟩, hb => exact absurd rfl hb
  · rfl

/-! ## The categorical half -/

/-- The categorical half of the reference at (r, j). -/
theorem ref_cat_apply (x : FVec Ideal S16384x256 .f32) (lp : FVec Ideal S1024x32 .f32) (cs : IVec S1024 32)
    (hc1 : ∀ j : Fin 1024, 128 ≤ (cs (ix1 j)).toNat) (hc2 : ∀ j : Fin 1024, (cs (ix1 j)).toNat < 256)
    (hcls : ∀ (r : Fin 16384) (f : Fin 128), (Ideal.fptosi 32 (x (ix2 r (⟨128 + f.val, by omega⟩ : Fin 256)))).toNat < 32)
    (r : Fin 16384) (j : Fin 1024) :
    Cert.ReferenceIdeal.ReadP.val_main_v46 (F := Ideal) x lp cs (ix2 r j)
      = lp (ix2 j (cls (x (ix2 r (col (cs (ix1 j))))))) := by
  have h1 := hc1 j
  have h2 := hc2 j
  -- the scope's column is 128 + f for a categorical feature f, so its class is below 32
  have hcol : (⟨128 + ((cs (ix1 j)).toNat - 128), by omega⟩ : Fin 256) = col (cs (ix1 j)) := by
    apply Fin.ext
    show 128 + ((cs (ix1 j)).toNat - 128) = (cs (ix1 j)).toNat % 256
    omega
  have hc : (Ideal.fptosi 32 (x (ix2 r (col (cs (ix1 j)))))).toNat < 32 := by
    have hf := hcls r (⟨(cs (ix1 j)).toNat - 128, by omega⟩ : Fin 128)
    have e := congrArg (fun c => (Ideal.fptosi 32 (x (ix2 r c))).toNat) hcol
    exact lt_of_eq_of_lt e.symm hf
  unfold ReadP.val_main_v46
  refine (gatherPair_apply lp (ReadP.val_main_v45 (F := Ideal) x cs) r j).trans ?_
  have e0 : (⟨min (ReadP.val_main_v45 (F := Ideal) x cs (ix3 r j (0 : Fin 2))).toInt.toNat 1023, by omega⟩ : Fin 1024)
      = j := by
    apply Fin.ext
    show min (ReadP.val_main_v45 (F := Ideal) x cs (ix3 r j (0 : Fin 2))).toInt.toNat 1023 = j.val
    have hj := j.isLt
    have hn : (BitVec.ofNat 32 j.val).toNat = j.val := by
      rw [BitVec.toNat_ofNat]; omega
    rw [v45_at0, clamp_of_le _ 1023 (by omega) (by omega), hn]
  have e1 : (⟨min (ReadP.val_main_v45 (F := Ideal) x cs (ix3 r j (1 : Fin 2))).toInt.toNat 31, by omega⟩ : Fin 32)
      = cls (x (ix2 r (col (cs (ix1 j))))) := by
    apply Fin.ext
    show min (ReadP.val_main_v45 (F := Ideal) x cs (ix3 r j (1 : Fin 2))).toInt.toNat 31
      = (Ideal.fptosi 32 (x (ix2 r (col (cs (ix1 j)))))).toNat % 32
    rw [v45_at1, v44_at x cs r j h2 hc, clamp_of_le _ 31 (by omega) (by omega), Nat.mod_eq_of_lt hc]
  exact congrArg₂ (fun a b => lp (ix2 a b)) e0 e1

end Cert.Leaves

end
-- ==== Proof.RefAll.lean ====
/-
  The reference's result is `G` of its arguments on the domain: the two halves joined along the leaf axis.
-/
import proofs.«424448_j26723286515898_3_alg».proof.Proof.RefGauss
import proofs.«424448_j26723286515898_3_alg».proof.Proof.RefCat
import Idealize.ShloMosaic.Lib.Pipeline.Value

noncomputable section

namespace Cert.Leaves

open Cert.ReferenceIdeal Idealize.ShloMosaic Idealize.ShloMosaic.ValueIdx

/-- Two arrays joined along the leaf axis, the first the Gaussian leaves and the second the categorical leaves, are `G`. -/
theorem concat_eq_G (x : FVec Ideal S16384x256 .f32) (mu sd : FVec Ideal S1024 .f32) (lp : FVec Ideal S1024x32 .f32) (gs cs : IVec S1024 32)
    (A B : FVec Ideal S16384x1024 .f32)
    (hA : ∀ (r : Fin 16384) (j : Fin 1024), A (ix2 r j) = gaussR (x (ix2 r (col (gs (ix1 j))))) (mu (ix1 j)) (sd (ix1 j)))
    (hB : ∀ (r : Fin 16384) (j : Fin 1024), B (ix2 r j) = lp (ix2 j (cls (x (ix2 r (col (cs (ix1 j))))))))
    (hc : Shape.Concatenates [S16384x1024, S16384x1024] S16384x2048 1) :
    concatenate S16384x2048 1 [⟨S16384x1024, A⟩, ⟨S16384x1024, B⟩] hc = G x mu sd lp gs cs := by
  funext i
  by_cases h : (i 1).val < 1024
  · refine (concatenate_pair_apply_left (1 : Fin S16384x2048.rank) A B hc i rfl
      (ix2 (⟨(i 0).val, idx2_lt0 i⟩ : Fin 16384) (⟨(i 1).val, h⟩ : Fin 1024)) ?_).trans ?_
    · intro b
      match b with
      | ⟨0, _⟩ => rfl
      | ⟨1, _⟩ => rfl
    · rw [hA]
      unfold G
      rw [dif_pos h]
  · have h2 : (i 1).val - 1024 < 1024 := by have := idx2_lt1 i; omega
    refine (concatenate_pair_apply_right (1 : Fin S16384x2048.rank) A B hc i rfl rfl
      (ix2 (⟨(i 0).val, idx2_lt0 i⟩ : Fin 16384) (⟨(i 1).val - 1024, h2⟩ : Fin 1024)) ?_ ?_).trans ?_
    · intro b hb
      match b, hb with
      | ⟨0, _⟩, _ => rfl
      | ⟨1, _⟩, hb => exact absurd rfl hb
    · show (i 1).val - 1024 + 1024 = (i 1).val
      omega
    · rw [hB]
      unfold G
      rw [dif_neg h]

/-- The reference's last stage is `G`. -/
theorem ref_eq (x : FVec Ideal S16384x256 .f32) (mu sd : FVec Ideal S1024 .f32) (lp : FVec Ideal S1024x32 .f32) (gs cs : IVec S1024 32)
    (hd : Dom x mu sd lp gs cs) :
    Cert.ReferenceIdeal.ReadP.val_main_v47 (F := Ideal) x mu sd lp gs cs = G x mu sd lp gs cs := by
  -- the last stage joins the Gaussian stage and the categorical stage along the leaf axis
  unfold Cert.ReferenceIdeal.ReadP.val_main_v47
  exact concat_eq_G x mu sd lp gs cs _ _
    (fun r j => ref_gauss_apply x mu sd gs hd.gs_lt r j)
    (fun r j => ref_cat_apply x lp cs hd.cs_ge hd.cs_lt hd.cls_lt r j) _

end Cert.Leaves

end
-- ==== Proof.lean ====
/-
  The certificate of the leaf layer: a fused Pallas kernel for 1024 Gaussian leaves and 1024 categorical leaves over
  16384 samples, against its jnp reference.

  The kernel selects each leaf's feature by a one-hot MATMUL (the block of x, split as [x | x - x], against a stacked
  one-hot of the Gaussian scopes; a 0/1 class mask against a table holding logp[leaf, class] on the row of the leaf's
  feature, and against the table's low part), where the reference GATHERS (x[:, scope], then logp[leaf, class]). At the
  ideal instance a change of float format is the identity, so the low parts are x - x and table - table: zero for
  finite entries. A sum against a one-hot column is one term (0 annihilates on the extended reals). The Gaussian
  leaf is spelt -½·((a - μ)·(1/σ))² + (-(log σ) - c) by the kernel and ((-½·((a - μ)/σ)²) - log σ) - c by the
  reference: equal for finite a, μ and positive finite σ.

  The domain (the precondition): every float entry finite; σ > 0 (at σ = 0 the reference is -∞); the Gaussian scopes
  in [0, 128) and the categorical scopes in [128, 256), the two halves of the feature axis the leaf families read; every
  categorical feature's class in [0, 32), the range the reference indexes logp's class axis with.

  Modules: Spec (the result as one function, the scalar laws), PreFacts (the precondition decoded), Glue / GlueTable
  (the staged arrays as functions of the arguments), PayGauss / PayCat (the body's two payloads at an index), Blocks
  (from the 64 blocks to the array), RefRunP / RefStages over LibSsa (the reference's run, one operation at a time),
  RefReadP (its stages), RefGather / RefGauss / RefCat / RefAll (the reference at an index).
-/
import proofs.«424448_j26723286515898_3_alg».proof.Defs
import proofs.«424448_j26723286515898_3_alg».proof.Proof.Gen.Kernel
import proofs.«424448_j26723286515898_3_alg».proof.Proof.Gen.Kernel.Skeleton
import proofs.«424448_j26723286515898_3_alg».proof.Proof.Gen.Kernel.Launch
import proofs.«424448_j26723286515898_3_alg».proof.Proof.Gen.Kernel.Points
import proofs.«424448_j26723286515898_3_alg».proof.Proof.Gen.Kernel.Frame
import proofs.«424448_j26723286515898_3_alg».proof.Proof.Gen.KernelIdeal
import proofs.«424448_j26723286515898_3_alg».proof.Proof.Gen.KernelIdeal.Skeleton
import proofs.«424448_j26723286515898_3_alg».proof.Proof.Gen.KernelIdeal.Launch
import proofs.«424448_j26723286515898_3_alg».proof.Proof.Gen.KernelIdeal.Points
import proofs.«424448_j26723286515898_3_alg».proof.Proof.Gen.KernelIdeal.Frame
import proofs.«424448_j26723286515898_3_alg».proof.Proof.Gen.ReferenceIdeal
import proofs.«424448_j26723286515898_3_alg».proof.Proof.Gen.Pre_finite_inputs
import proofs.«424448_j26723286515898_3_alg».proof.Proof.Gen.KernelIdeal.Value
import proofs.«424448_j26723286515898_3_alg».proof.Proof.RefStages
import proofs.«424448_j26723286515898_3_alg».proof.Proof.PreFacts
import proofs.«424448_j26723286515898_3_alg».proof.Proof.Blocks
import proofs.«424448_j26723286515898_3_alg».proof.Proof.RefAll
import Idealize.ShloMosaic.Adequacy
import Idealize.ShloMosaic.Init

noncomputable section

namespace Cert.Proof

open Idealize.ShloMosaic Idealize.ShloMosaic.TcCoe Idealize.SL.Sem Cert.Leaves

/-- The kernel as printed runs and leaves its arguments: the generated frame. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and leaves its arguments: no operation of its program writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Stages.st_main_arg0 _),
     (h c Cert.ReferenceIdeal.main_arg1).trans (Cert.ReferenceIdeal.Stages.st_main_arg1 _),
     (h c Cert.ReferenceIdeal.main_arg2).trans (Cert.ReferenceIdeal.Stages.st_main_arg2 _),
     (h c Cert.ReferenceIdeal.main_arg3).trans (Cert.ReferenceIdeal.Stages.st_main_arg3 _),
     (h c Cert.ReferenceIdeal.main_arg4).trans (Cert.ReferenceIdeal.Stages.st_main_arg4 _),
     (h c Cert.ReferenceIdeal.main_arg5).trans (Cert.ReferenceIdeal.Stages.st_main_arg5 _)⟩)
    (Cert.ReferenceIdeal.ValueP.run_after (F := Ideal) m ρ)

/-- The one rewrite of the idealization: widening a value just narrowed is the identity at the ideal instance. -/
theorem preserves : Cert.preserves_Kernel_KernelIdeal :=
  IdealRules.truncf_extf.statement Cert.KernelIdeal.S256x128 .f32 .bf16

/-- On the domain both programs end with the specification of the (agreeing) arguments. -/
theorem algebraic : Cert.algebraic_KernelIdeal_ReferenceIdeal := by
  intro m ρ m' ρ' hpre hagree
  have hd : ∀ c, Dom (aX m c) (aMu m c) (aSd m c) (aLp m c) (aGs m c) (aCs m c) :=
    fun c => dom_of_pre _ _ _ _ _ _ (hpre c)
  refine ⟨fun c => G (aX m c) (aMu m c) (aSd m c) (aLp m c) (aGs m c) (aCs m c), ?_, ?_⟩
  · exact (θ_run Cert.KernelIdeal.defs _ _).mono
      (fun r h c => ⟨(h c).1.trans (kernel_final m c (hd c)), (h c).2⟩)
      (Cert.KernelIdeal.Value.run_blocks m ρ)
  · refine (θ_run Cert.ReferenceIdeal.defs _ _).mono (fun _ h c =>
      ⟨?_, (h c Cert.ReferenceIdeal.main_arg0).trans (Cert.ReferenceIdeal.Stages.st_main_arg0 _),
       (h c Cert.ReferenceIdeal.main_arg1).trans (Cert.ReferenceIdeal.Stages.st_main_arg1 _),
       (h c Cert.ReferenceIdeal.main_arg2).trans (Cert.ReferenceIdeal.Stages.st_main_arg2 _),
       (h c Cert.ReferenceIdeal.main_arg3).trans (Cert.ReferenceIdeal.Stages.st_main_arg3 _),
       (h c Cert.ReferenceIdeal.main_arg4).trans (Cert.ReferenceIdeal.Stages.st_main_arg4 _),
       (h c Cert.ReferenceIdeal.main_arg5).trans (Cert.ReferenceIdeal.Stages.st_main_arg5 _)⟩)
      (Cert.ReferenceIdeal.ValueP.run_after (F := Ideal) m' ρ')
    refine ((h c Cert.ReferenceIdeal.main_v47).trans (Cert.ReferenceIdeal.Stages.st_main_v47 _)).trans ?_
    show Cert.ReferenceIdeal.ReadP.val_main_v47 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]
    exact ref_eq _ _ _ _ _ _ (hd c)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
